-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x64 : S_.BroadcastsInDim S96x64 (![] : Fin 0 → Fin S96x64.rank)
  reducesTo_S96x64_S_d0_1 : S96x64.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_

variable [Facts]

def fn_part2 {F : FTy → Type} [FloatOps F] (main_arg9 : FVec F S64 .f32) (main_arg10 : FVec F S64x96 .f32) (main_arg11 : FVec F S96 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x96 .f32 := Host.absf main_arg10
  let main_cst_14 : FVec F S_ .f32 := constant S_ .f32 0x7F800000#32
  let main_v40 : FVec F S64x96 .f32 := broadcastInDim S64x96 ![] bcast_S_S64x96 main_cst_14
  let main_v41 : IVec S64x96 1 := cmpf .olt main_v39 main_v40
  let main_c_15 : IVec S_ 1 := constantI S_ 1 1#1
  let main_v42 : IVec S_ 1 := (fun x v => Host.reduce IntOp.andi x v reducesTo_S64x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg6 : FVec F S96x96 .f32) (main_arg7 : FVec F S96 .f32) (main_arg8 : FVec F S96x64 .f32) (main_arg9 : FVec F S64 .f32) (main_arg10 : FVec F S64x96 .f32) (main_arg11 : FVec F S96 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg8
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x96 .f32) (main_arg1 : FVec F S800000x96 .f32) (main_arg2 : IVec S800000 32) (main_arg3 : IVec S800000 32) (main_arg4 : FVec F S96x64 .f32) (main_arg5 : FVec F S96x64 .f32) (main_arg6 : FVec F S96x96 .f32) (main_arg7 : FVec F S96 .f32) (main_arg8 : FVec F S96x64 .f32) (main_arg9 : FVec F S64 .f32) (main_arg10 : FVec F S64x96 .f32) (main_arg11 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S96x64 .f32 := Host.absf main_arg5
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg6 main_arg7 main_arg8 main_arg9 main_arg10 main_arg11 main_v13 main_v16
-- ==== Kernel.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S64x8 : Shape := ⟨2, ![64, 8]⟩
abbrev S8x96 : Shape := ⟨2, ![8, 96]⟩
abbrev S_ : Shape := ⟨0, ![]⟩
abbrev S1x96 : Shape := ⟨2, ![1, 96]⟩
abbrev S1x64 : Shape := ⟨2, ![1, 64]⟩
abbrev S50000x64 : Shape := ⟨2, ![50000, 64]⟩
abbrev S2000x96 : Shape := ⟨2, ![2000, 96]⟩
abbrev S2000x64 : Shape := ⟨2, ![2000, 64]⟩
abbrev S800000x1 : Shape := ⟨2, ![800000, 1]⟩
abbrev S800000x64 : Shape := ⟨2, ![800000, 64]⟩
abbrev S800000x8 : Shape := ⟨2, ![800000, 8]⟩
abbrev S6400x96 : Shape := ⟨2, ![6400, 96]⟩
abbrev S6400x64 : Shape := ⟨2, ![6400, 64]⟩
abbrev S6400x8 : Shape := ⟨2, ![6400, 8]⟩
abbrev S800000x8x12 : Shape := ⟨3, ![800000, 8, 12]⟩
abbrev S800000x8x1 : Shape := ⟨3, ![800000, 8, 1]⟩
abbrev S50000x8x12 : Shape := ⟨3, ![50000, 8, 12]⟩
abbrev S50000x8x1 : Shape := ⟨3, ![50000, 8, 1]⟩

abbrev nBuf : Space → Nat
  | .hbm => 63
  | .vmem => 28
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x64, .f32⟩
  | .hbm, ⟨5, _⟩ => ⟨S96x64, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S64, .f32⟩
  | .hbm, ⟨10, _⟩ => ⟨S64x96, .f32⟩
  | .hbm, ⟨11, _⟩ => ⟨S96, .f32⟩
  | .hbm, ⟨12, _⟩ => ⟨S64x8, .f32⟩
  | .hbm, ⟨13, _⟩ => ⟨S8x96, .f32⟩
  | .hbm, ⟨14, _⟩ => ⟨S_, .f32⟩
  | .hbm, ⟨15, _⟩ => ⟨S96, .f32⟩
  | .hbm, ⟨16, _⟩ => ⟨S_, .f32⟩
  | .hbm, ⟨17, _⟩ => ⟨S96, .f32⟩
  | .hbm, ⟨18, _⟩ => ⟨S96, .f32⟩
  | .hbm, ⟨19, _⟩ => ⟨S1x96, .f32⟩
  | .hbm, ⟨20, _⟩ => ⟨S1x64, .f32⟩
  | .hbm, ⟨21, _⟩ => ⟨S1x96, .f32⟩
  | .hbm, ⟨22, _⟩ => ⟨S50000x64, .f32⟩
  | .hbm, ⟨23, _⟩ => ⟨S50000x96, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x96, .f32⟩
  | .hbm, ⟨42, _⟩ => ⟨S1x64, .f32⟩
  | .hbm, ⟨43, _⟩ => ⟨S1x96, .f32⟩
  | .hbm, ⟨44, _⟩ => ⟨S800000x96, .f32⟩
  | .hbm, ⟨45, _⟩ => ⟨S800000x96, .f32⟩
  | .hbm, ⟨46, _⟩ => ⟨S800000x8, .f32⟩
  | .hbm, ⟨47, _⟩ => ⟨S800000x8x12, .f32⟩
  | .hbm, ⟨48, _⟩ => ⟨S800000x8x1, .f32⟩
  | .hbm, ⟨49, _⟩ => ⟨S_, .f32⟩
  | .hbm, ⟨50, _⟩ => ⟨S50000x8x12, .f32⟩
  | .hbm, ⟨51, _⟩ => ⟨S800000x1, .i32⟩
  | .hbm, ⟨52, _⟩ => ⟨S50000x8x12, .f32⟩
  | .hbm, ⟨53, _⟩ => ⟨S_, .f32⟩
  | .hbm, ⟨54, _⟩ => ⟨S50000x8x1, .f32⟩
  | .hbm, ⟨55, _⟩ => ⟨S800000x1, .i32⟩
  | .hbm, ⟨56, _⟩ => ⟨S50000x8x1, .f32⟩
  | .hbm, ⟨57, _⟩ => ⟨S_, .f32⟩
  | .hbm, ⟨58, _⟩ => ⟨S50000x8x1, .f32⟩
  | .hbm, ⟨59, _⟩ => ⟨S50000x8x1, .f32⟩
  | .hbm, ⟨60, _⟩ => ⟨S50000x8x12, .f32⟩
  | .hbm, ⟨61, _⟩ => ⟨S50000x8x12, .f32⟩
  | .hbm, ⟨62, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x64, .f32⟩
  | .local _ .vmem, ⟨3, _⟩ => ⟨S96x96, .f32⟩
  | .local _ .vmem, ⟨4, _⟩ => ⟨S1x96, .f32⟩
  | .local _ .vmem, ⟨5, _⟩ => ⟨S2000x64, .f32⟩
  | .local _ .vmem, ⟨6, _⟩ => ⟨S2000x64, .f32⟩
  | .local _ .vmem, ⟨7, _⟩ => ⟨S2000x96, .f32⟩
  | .local _ .vmem, ⟨8, _⟩ => ⟨S2000x96, .f32⟩
  | .local _ .vmem, ⟨9, _⟩ => ⟨S6400x96, .f32⟩
  | .local _ .vmem, ⟨10, _⟩ => ⟨S6400x96, .f32⟩
  | .local _ .vmem, ⟨11, _⟩ => ⟨S6400x64, .f32⟩
  | .local _ .vmem, ⟨12, _⟩ => ⟨S6400x64, .f32⟩
  | .local _ .vmem, ⟨13, _⟩ => ⟨S6400x96, .f32⟩
  | .local _ .vmem, ⟨14, _⟩ => ⟨S6400x96, .f32⟩
  | .local _ .vmem, ⟨15, _⟩ => ⟨S1x64, .f32⟩
  | .local _ .vmem, ⟨16, _⟩ => ⟨S96x64, .f32⟩
  | .local _ .vmem, ⟨17, _⟩ => ⟨S1x64, .f32⟩
  | .local _ .vmem, ⟨18, _⟩ => ⟨S64x96, .f32⟩
  | .local _ .vmem, ⟨19, _⟩ => ⟨S1x96, .f32⟩
  | .local _ .vmem, ⟨20, _⟩ => ⟨S64x8, .f32⟩
  | .local _ .vmem, ⟨21, _⟩ => ⟨S8x96, .f32⟩
  | .local _ .vmem, ⟨22, _⟩ => ⟨S6400x96, .f32⟩
  | .local _ .vmem, ⟨23, _⟩ => ⟨S6400x96, .f32⟩
  | .local _ .vmem, ⟨24, _⟩ => ⟨S6400x96, .f32⟩
  | .local _ .vmem, ⟨25, _⟩ => ⟨S6400x96, .f32⟩
  | .local _ .vmem, ⟨26, _⟩ => ⟨S6400x8, .f32⟩
  | .local _ .vmem, ⟨27, _⟩ => ⟨S6400x8, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_v0 : Ref sig .tc := ⟨.hbm, 15, rfl⟩
abbrev main_cst_2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6400x96 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S6400x96 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S6400x8 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  reducesTo_S50000x96_S96_d0 : S50000x96.ReducesTo [0] S96
  h_S_ : 0 < S_.numel
  bcast_S_S96 : S_.BroadcastsInDim S96 (![] : Fin 0 → Fin S96.rank)
  shapeCasts_S96_S1x96 : S96.ShapeCasts S1x96
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S6400x96_S6400x96_0_0 : ∀ a, (![0, 0] : Fin 2 → Nat) a + S6400x96.size a ≤ S6400x96.size a
  h_S6400x96 : 0 < S6400x96.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x8_S64x8_0_0 : ∀ a, (![0, 0] : Fin 2 → Nat) a + S64x8.size a ≤ S64x8.size a
  h_S64x8 : 0 < S64x8.numel
  inb_S8x96_S8x96_0_0 : ∀ a, (![0, 0] : Fin 2 → Nat) a + S8x96.size a ≤ S8x96.size a
  h_S8x96 : 0 < S8x96.numel
  shapeCasts_S6400x96_S6400x96 : S6400x96.ShapeCasts S6400x96
  inb_S64x96_S64x96_0_0 : ∀ a, (![0, 0] : Fin 2 → Nat) a + S64x96.size a ≤ S64x96.size a
  h_S64x96 : 0 < S64x96.numel
  broadcasts_S1x96_S6400x96 : S1x96.Broadcasts S6400x96
  inb_S6400x8_S6400x8_0_0 : ∀ a, (![0, 0] : Fin 2 → Nat) a + S6400x8.size a ≤ S6400x8.size a
  h_S6400x8 : 0 < S6400x8.numel
  shapeCasts_S800000x96_S800000x8x12 : S800000x96.ShapeCasts S800000x8x12
  shapeCasts_S800000x8_S800000x8x1 : S800000x8.ShapeCasts S800000x8x1
  bcast_S_S50000x8x12 : S_.BroadcastsInDim S50000x8x12 (![] : Fin 0 → Fin S50000x8x12.rank)
  bcast_S_S50000x8x1 : S_.BroadcastsInDim S50000x8x1 (![] : Fin 0 → Fin S50000x8x1.rank)
  bcast_S50000x8x1_S50000x8x12_0_1_2 : S50000x8x1.BroadcastsInDim S50000x8x12 (![0, 1, 2] : Fin 3 → Fin S50000x8x12.rank)
  shapeCasts_S50000x8x12_S50000x96 : S50000x8x12.ShapeCasts S50000x96
  dot_S1x96_S96x64_S1x64_1_0_0_1_n_n_wf : DotDims.WF S1x96 S96x64 S1x64 [1] [0] [0] [1] [] []
  dot_S2000x96_S96x64_S2000x64_1_0_0_1_n_n_wf : DotDims.WF S2000x96 S96x64 S2000x64 [1] [0] [0] [1] [] []
  dot_S2000x96_S96x96_S2000x96_1_0_0_1_n_n_wf : DotDims.WF S2000x96 S96x96 S2000x96 [1] [0] [0] [1] [] []
  gather_S50000x64_S800000x1_S800000x64_1_0_n_n_0_1_164_wf : GatherDims.WF S50000x64 S800000x1 S800000x64 [1] [0] [] [0] [] 1 ![1, 64]
  gather_S50000x96_S800000x1_S800000x96_1_0_n_n_0_1_196_wf : GatherDims.WF S50000x96 S800000x1 S800000x96 [1] [0] [] [0] [] 1 ![1, 96]
  dot_S6400x96_S96x64_S6400x64_1_0_0_1_n_n_wf : DotDims.WF S6400x96 S96x64 S6400x64 [1] [0] [0] [1] [] []
  dot_S6400x64_S64x8_S6400x8_1_0_0_1_n_n_wf : DotDims.WF S6400x64 S64x8 S6400x8 [1] [0] [0] [1] [] []
  dot_S6400x8_S8x96_S6400x96_1_0_0_1_n_n_wf : DotDims.WF S6400x8 S8x96 S6400x96 [1] [0] [0] [1] [] []
  dot_S6400x64_S64x96_S6400x96_1_0_0_1_n_n_wf : DotDims.WF S6400x64 S64x96 S6400x96 [1] [0] [0] [1] [] []
  scatter_S50000x8x12_S800000x1_S800000x8x12_12_0_0_1_wf : ScatterDims.WF S50000x8x12 S800000x1 S800000x8x12 [1, 2] [0] [0] 1
  scatter_S50000x8x1_S800000x1_S800000x8x1_12_0_0_1_wf : ScatterDims.WF S50000x8x1 S800000x1 S800000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x96.size a ≤ S800000x96.size a
  hwx1_0 : ∀ i : grid1.Coords, EltTy.bits .f32 = 32 ∨ (Rect.block (s := S800000x96) S6400x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S800000x64.size a
  hwx1_1 : ∀ i : grid1.Coords, EltTy.bits .f32 = 32 ∨ (Rect.block (s := S800000x64) S6400x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x96.size a ≤ S800000x96.size a
  hwx1_2 : ∀ i : grid1.Coords, EltTy.bits .f32 = 32 ∨ (Rect.block (s := S800000x96) S6400x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x64.size a ≤ S96x64.size a
  hwx1_4 : ∀ i : grid1.Coords, EltTy.bits .f32 = 32 ∨ (Rect.block (s := S96x64) S96x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x96.size a ≤ S64x96.size a
  hwx1_6 : ∀ i : grid1.Coords, EltTy.bits .f32 = 32 ∨ (Rect.block (s := S64x96) S64x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x8.size a ≤ S64x8.size a
  hwx1_8 : ∀ i : grid1.Coords, EltTy.bits .f32 = 32 ∨ (Rect.block (s := S64x8) S64x8.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S8x96.size a ≤ S8x96.size a
  hwx1_9 : ∀ i : grid1.Coords, EltTy.bits .f32 = 32 ∨ (Rect.block (s := S8x96) S8x96.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6400x96.size a ≤ S800000x96.size a
  hwx1_10 : ∀ i : grid1.Coords, EltTy.bits .f32 = 32 ∨ (Rect.block (s := S800000x96) S6400x96.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S6400x96.size a ≤ S800000x96.size a
  hwx1_11 : ∀ i : grid1.Coords, EltTy.bits .f32 = 32 ∨ (Rect.block (s := S800000x96) S6400x96.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S6400x8.size a ≤ S800000x8.size a
  hwx1_12 : ∀ i : grid1.Coords, EltTy.bits .f32 = 32 ∨ (Rect.block (s := S800000x8) S6400x8.size (cc1_transform_12 i) (hinb1_12 i)).WholeWords (EltTy.packing .f32)

variable [Facts₀]

def dot_S1x96_S96x64_S1x64_1_0_0_1_n_n : DotDims S1x96 S96x64 S1x64 where
  lhsContracting := [1]
  rhsContracting := [0]
  lhsNonContracting := [0]
  rhsNonContracting := [1]
  lhsBatch := []
  rhsBatch := []
  wf := dot_S1x96_S96x64_S1x64_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S6400x96_S96x64_S6400x64_1_0_0_1_n_n : DotDims S6400x96 S96x64 S6400x64 where
  lhsContracting := [1]
  rhsContracting := [0]
  lhsNonContracting := [0]
  rhsNonContracting := [1]
  lhsBatch := []
  rhsBatch := []
  wf := dot_S6400x96_S96x64_S6400x64_1_0_0_1_n_n_wf
def dot_S6400x64_S64x8_S6400x8_1_0_0_1_n_n : DotDims S6400x64 S64x8 S6400x8 where
  lhsContracting := [1]
  rhsContracting := [0]
  lhsNonContracting := [0]
  rhsNonContracting := [1]
  lhsBatch := []
  rhsBatch := []
  wf := dot_S6400x64_S64x8_S6400x8_1_0_0_1_n_n_wf
def dot_S6400x8_S8x96_S6400x96_1_0_0_1_n_n : DotDims S6400x8 S8x96 S6400x96 where
  lhsContracting := [1]
  rhsContracting := [0]
  lhsNonContracting := [0]
  rhsNonContracting := [1]
  lhsBatch := []
  rhsBatch := []
  wf := dot_S6400x8_S8x96_S6400x96_1_0_0_1_n_n_wf
def dot_S6400x64_S64x96_S6400x96_1_0_0_1_n_n : DotDims S6400x64 S64x96 S6400x96 where
  lhsContracting := [1]
  rhsContracting := [0]
  lhsNonContracting := [0]
  rhsNonContracting := [1]
  lhsBatch := []
  rhsBatch := []
  wf := dot_S6400x64_S64x96_S6400x96_1_0_0_1_n_n_wf
def scatter_S50000x8x12_S800000x1_S800000x8x12_12_0_0_1 : ScatterDims S50000x8x12 S800000x1 S800000x8x12 where
  updateWindowDims := [1, 2]
  insertedWindowDims := [0]
  scatterDimsToOperandDims := [0]
  indexVectorDim := 1
  wf := scatter_S50000x8x12_S800000x1_S800000x8x12_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S6400x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S6400x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S96x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_cst) S64x8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_cst_0) S8x96.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23_0) S6400x96.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v23_1) S6400x96.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v23_2) S6400x8.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S_ : Shape := ⟨0, ![]⟩
abbrev S50000x64 : Shape := ⟨2, ![50000, 64]⟩
abbrev S50000x8x8 : Shape := ⟨3, ![50000, 8, 8]⟩
abbrev S1x96 : Shape := ⟨2, ![1, 96]⟩
abbrev S50000x8x12 : Shape := ⟨3, ![50000, 8, 12]⟩
abbrev S800000x64 : Shape := ⟨2, ![800000, 64]⟩
abbrev S1x64 : Shape := ⟨2, ![1, 64]⟩
abbrev S800000x8x8 : Shape := ⟨3, ![800000, 8, 8]⟩
abbrev S800000x1 : Shape := ⟨2, ![800000, 1]⟩
abbrev S800000x8 : Shape := ⟨2, ![800000, 8]⟩
abbrev S800000x8x1 : Shape := ⟨3, ![800000, 8, 1]⟩
abbrev S800000x8x12 : Shape := ⟨3, ![800000, 8, 12]⟩
abbrev S50000x8x1 : Shape := ⟨3, ![50000, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x64, .f32⟩
  | .hbm, ⟨5, _⟩ => ⟨S96x64, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S64, .f32⟩
  | .hbm, ⟨10, _⟩ => ⟨S64x96, .f32⟩
  | .hbm, ⟨11, _⟩ => ⟨S96, .f32⟩
  | .hbm, ⟨12, _⟩ => ⟨S_, .f32⟩
  | .hbm, ⟨13, _⟩ => ⟨S96, .f32⟩
  | .hbm, ⟨14, _⟩ => ⟨S_, .f32⟩
  | .hbm, ⟨15, _⟩ => ⟨S96, .f32⟩
  | .hbm, ⟨16, _⟩ => ⟨S96, .f32⟩
  | .hbm, ⟨17, _⟩ => ⟨S50000x96, .f32⟩
  | .hbm, ⟨18, _⟩ => ⟨S50000x64, .f32⟩
  | .hbm, ⟨19, _⟩ => ⟨S50000x8x8, .f32⟩
  | .hbm, ⟨20, _⟩ => ⟨S50000x64, .f32⟩
  | .hbm, ⟨21, _⟩ => ⟨S50000x8x8, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S50000x8x12, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S800000x8x8, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x8, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x8, .f32⟩
  | .hbm, ⟨50, _⟩ => ⟨S800000x8x8, .f32⟩
  | .hbm, ⟨51, _⟩ => ⟨S_, .f32⟩
  | .hbm, ⟨52, _⟩ => ⟨S800000x8x8, .f32⟩
  | .hbm, ⟨53, _⟩ => ⟨S800000x8x8, .f32⟩
  | .hbm, ⟨54, _⟩ => ⟨S800000x8x8, .f32⟩
  | .hbm, ⟨55, _⟩ => ⟨S_, .f32⟩
  | .hbm, ⟨56, _⟩ => ⟨S800000x8, .f32⟩
  | .hbm, ⟨57, _⟩ => ⟨S800000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S800000x8x1, .f32⟩
  | .hbm, ⟨62, _⟩ => ⟨S800000x8x1, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S800000x8x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x8x12, .f32⟩
  | .hbm, ⟨76, _⟩ => ⟨S800000x8x12, .f32⟩
  | .hbm, ⟨77, _⟩ => ⟨S800000x8x12, .f32⟩
  | .hbm, ⟨78, _⟩ => ⟨S_, .f32⟩
  | .hbm, ⟨79, _⟩ => ⟨S50000x8x12, .f32⟩
  | .hbm, ⟨80, _⟩ => ⟨S800000x1, .i32⟩
  | .hbm, ⟨81, _⟩ => ⟨S50000x8x12, .f32⟩
  | .hbm, ⟨82, _⟩ => ⟨S_, .f32⟩
  | .hbm, ⟨83, _⟩ => ⟨S50000x8x1, .f32⟩
  | .hbm, ⟨84, _⟩ => ⟨S800000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x12, .f32⟩
  | .hbm, ⟨90, _⟩ => ⟨S50000x8x12, .f32⟩
  | .hbm, ⟨91, _⟩ => ⟨S50000x96, .f32⟩
  | .hbm, ⟨92, _⟩ => ⟨S800000x64, .f32⟩
  | .hbm, ⟨93, _⟩ => ⟨S800000x96, .f32⟩
  | .hbm, ⟨94, _⟩ => ⟨S1x96, .f32⟩
  | .hbm, ⟨95, _⟩ => ⟨S800000x96, .f32⟩
  | .hbm, ⟨96, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  reducesTo_S50000x96_S96_d0 : S50000x96.ReducesTo [0] S96
  h_S_ : 0 < S_.numel
  bcast_S_S96 : S_.BroadcastsInDim S96 (![] : Fin 0 → Fin S96.rank)
  bcast_S96_S50000x96_1 : S96.BroadcastsInDim S50000x96 (![1] : Fin 1 → Fin S50000x96.rank)
  shapeCasts_S50000x64_S50000x8x8 : S50000x64.ShapeCasts S50000x8x8
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S50000x96_S50000x8x12 : S50000x96.ShapeCasts S50000x8x12
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  shapeCasts_S800000x64_S800000x8x8 : S800000x64.ShapeCasts S800000x8x8
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x8 : S_.BroadcastsInDim S800000x8x8 (![] : Fin 0 → Fin S800000x8x8.rank)
  reducesTo_S800000x8x8_S800000x8_d2 : S800000x8x8.ReducesTo [2] S800000x8
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x12_0_1_2 : S800000x8x1.BroadcastsInDim S800000x8x12 (![0, 1, 2] : Fin 3 → Fin S800000x8x12.rank)
  bcast_S_S50000x8x12 : S_.BroadcastsInDim S50000x8x12 (![] : Fin 0 → Fin S50000x8x12.rank)
  bcast_S_S50000x8x1 : S_.BroadcastsInDim S50000x8x1 (![] : Fin 0 → Fin S50000x8x1.rank)
  bcast_S50000x8x1_S50000x8x12_0_1_2 : S50000x8x1.BroadcastsInDim S50000x8x12 (![0, 1, 2] : Fin 3 → Fin S50000x8x12.rank)
  shapeCasts_S50000x8x12_S50000x96 : S50000x8x12.ShapeCasts S50000x96
  shapeCasts_S800000x8x8_S800000x64 : S800000x8x8.ShapeCasts S800000x64
  bcast_S1x96_S800000x96_0_1 : S1x96.BroadcastsInDim S800000x96 (![0, 1] : Fin 2 → Fin S800000x96.rank)
  dot_S50000x96_S96x64_S50000x64_1_0_0_1_n_n_wf : DotDims.WF S50000x96 S96x64 S50000x64 [1] [0] [0] [1] [] []
  dot_S50000x96_S96x96_S50000x96_1_0_0_1_n_n_wf : DotDims.WF S50000x96 S96x96 S50000x96 [1] [0] [0] [1] [] []
  dot_S800000x96_S96x64_S800000x64_1_0_0_1_n_n_wf : DotDims.WF S800000x96 S96x64 S800000x64 [1] [0] [0] [1] [] []
  gather_S50000x8x8_S800000x1_S800000x8x8_12_0_n_n_0_1_188_wf : GatherDims.WF S50000x8x8 S800000x1 S800000x8x8 [1, 2] [0] [] [0] [] 1 ![1, 8, 8]
  gather_S50000x8x12_S800000x1_S800000x8x12_12_0_n_n_0_1_1812_wf : GatherDims.WF S50000x8x12 S800000x1 S800000x8x12 [1, 2] [0] [] [0] [] 1 ![1, 8, 12]
  scatter_S50000x8x12_S800000x1_S800000x8x12_12_0_0_1_wf : ScatterDims.WF S50000x8x12 S800000x1 S800000x8x12 [1, 2] [0] [0] 1
  scatter_S50000x8x1_S800000x1_S800000x8x1_12_0_0_1_wf : ScatterDims.WF S50000x8x1 S800000x1 S800000x8x1 [1, 2] [0] [0] 1
  dot_S800000x64_S64x96_S800000x96_1_0_0_1_n_n_wf : DotDims.WF S800000x64 S64x96 S800000x96 [1] [0] [0] [1] [] []

variable [Facts₀]

def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def gather_S50000x8x8_S800000x1_S800000x8x8_12_0_n_n_0_1_188 : GatherDims S50000x8x8 S800000x1 S800000x8x8 where
  offsetDims := [1, 2]
  collapsedSliceDims := [0]
  operandBatchingDims := []
  startIndicesBatchingDims := []
  startIndexMap := [0]
  indexVectorDim := 1
  sliceSizes := ![1, 8, 8]
  wf := gather_S50000x8x8_S800000x1_S800000x8x8_12_0_n_n_0_1_188_wf
def gather_S50000x8x12_S800000x1_S800000x8x12_12_0_n_n_0_1_1812 : GatherDims S50000x8x12 S800000x1 S800000x8x12 where
  offsetDims := [1, 2]
  collapsedSliceDims := [0]
  operandBatchingDims := []
  startIndicesBatchingDims := []
  startIndexMap := [0]
  indexVectorDim := 1
  sliceSizes := ![1, 8, 12]
  wf := gather_S50000x8x12_S800000x1_S800000x8x12_12_0_n_n_0_1_1812_wf
def scatter_S50000x8x12_S800000x1_S800000x8x12_12_0_0_1 : ScatterDims S50000x8x12 S800000x1 S800000x8x12 where
  updateWindowDims := [1, 2]
  insertedWindowDims := [0]
  scatterDimsToOperandDims := [0]
  indexVectorDim := 1
  wf := scatter_S50000x8x12_S800000x1_S800000x8x12_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S800000x64_S64x96_S800000x96_1_0_0_1_n_n : DotDims S800000x64 S64x96 S800000x96 where
  lhsContracting := [1]
  rhsContracting := [0]
  lhsNonContracting := [0]
  rhsNonContracting := [1]
  lhsBatch := []
  rhsBatch := []
  wf := dot_S800000x64_S64x96_S800000x96_1_0_0_1_n_n_wf

class Facts : Prop extends Facts₀ where

variable [Facts]
-- ==== Proof.KHost.lean ====
/-
  The host operations around the two regions, read back. At the first region's entry its four operand arrays are the
  arguments (the value bias as a one-row array). At the second region's entry: the edge features and the three weight
  arrays are the arguments, the two biases are one-row arrays, the gathered keys and values are gathers of the first
  region's two results at the wrapped source indices, the query row is the mean of the node features times the query
  weights, and the two 0/1 matrices are the literal tables. After the second region the edge output is the region's
  first result and the node output is the shared tail (two scatter-adds by destination, the quotient, a reshape) of the
  region's other two results.
-/
import proofs.«109308_j80942953660859_1_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.Pipeline (Dat)

/-- The start indices of a gather: a negative index wrapped by the number of nodes, laid out as a column. -/
def idxK (x : (⟨S800000, .i32⟩ : BufTy).Contents (Elt Ideal)) : (⟨S800000x1, .i32⟩ : BufTy).Contents (Elt Ideal) :=
  broadcastInDim S800000x1 ![0] bcast_S800000_S800000x1_0 (select (cmpi .slt x (broadcastInDim S800000 ![] bcast_S_S800000 (constantI S_ 32 0#32))) (addi x (broadcastInDim S800000 ![] bcast_S_S800000 (constantI S_ 32 50000#32))) x)

/-- The mean of the node features over the nodes. -/
def meanK (x0 : (⟨S50000x96, .f32⟩ : BufTy).Contents (Elt Ideal)) : (⟨S96, .f32⟩ : BufTy).Contents (Elt Ideal) :=
  Host.divf (F := Ideal) (Host.reduceAdd x0 (constant S_ .f32 0x00000000#32) reducesTo_S50000x96_S96_d0 h_S_) (broadcastInDim S96 ![] bcast_S_S96 (constant S_ .f32 0x47435000#32))

/-- The tail: the weighted values and the head weights scatter-added by destination node, the sums' quotient with the
    small constant added to the divisor, reshaped to the node output. -/
def tailK (sv : (⟨S800000x96, .f32⟩ : BufTy).Contents (Elt Ideal)) (s : (⟨S800000x8, .f32⟩ : BufTy).Contents (Elt Ideal))
    (dst : (⟨S800000, .i32⟩ : BufTy).Contents (Elt Ideal)) : (⟨S50000x96, .f32⟩ : BufTy).Contents (Elt Ideal) :=
  shapeCast _ (Host.divf (F := Ideal)
    (Host.scatterAdd scatter_S50000x8x12_S800000x1_S800000x8x12_12_0_0_1
      (broadcastInDim S50000x8x12 ![] bcast_S_S50000x8x12 (constant S_ .f32 0x00000000#32))
      (broadcastInDim S800000x1 ![0] bcast_S800000_S800000x1_0 dst)
      (shapeCast _ sv shapeCasts_S800000x96_S800000x8x12))
    (broadcastInDim S50000x8x12 ![0, 1, 2] bcast_S50000x8x1_S50000x8x12_0_1_2
      (addf
        (Host.scatterAdd scatter_S50000x8x1_S800000x1_S800000x8x1_12_0_0_1
          (broadcastInDim S50000x8x1 ![] bcast_S_S50000x8x1 (constant S_ .f32 0x00000000#32))
          (broadcastInDim S800000x1 ![0] bcast_S800000_S800000x1_0 dst)
          (shapeCast _ s shapeCasts_S800000x8_S800000x8x1))
        (broadcastInDim S50000x8x1 ![] bcast_S_S50000x8x1 (constant S_ .f32 0x358637BD#32)))))
    shapeCasts_S50000x8x12_S50000x96

variable (m : (ℓ : Loc nD τ sig) → Buf (Elt Ideal) ℓ) (ρ : Dev nD → PrngReg)

/-! ## Walking a buffer back through the run

A buffer that no operation of a host stretch writes keeps its contents through the stretch; a buffer that is no
window array of a region keeps its contents through the region; an input window's array ends the region as it
entered; an output window's array ends at the folded write-backs. -/

/-- A buffer that no operation of the named stretch writes keeps its contents through the stretch. -/
local macro "kept_through " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### The arguments at the first region's entry: the first stretch writes none of them -/

private theorem W1_arg0 (c : Dev nD) : W1 m ρ c (Proc.devRef .tc main_arg0) = m ((c.tc : Thread nD τ).loc main_arg0) := by
  show StableHlo.after hostOps0 (W0 m ρ c) (Proc.devRef .tc main_arg0) = W0 m ρ c (Proc.devRef .tc main_arg0)
  kept_through hostOps0
private theorem W1_arg1 (c : Dev nD) : W1 m ρ c (Proc.devRef .tc main_arg1) = m ((c.tc : Thread nD τ).loc main_arg1) := by
  show StableHlo.after hostOps0 (W0 m ρ c) (Proc.devRef .tc main_arg1) = W0 m ρ c (Proc.devRef .tc main_arg1)
  kept_through hostOps0
private theorem W1_arg2 (c : Dev nD) : W1 m ρ c (Proc.devRef .tc main_arg2) = m ((c.tc : Thread nD τ).loc main_arg2) := by
  show StableHlo.after hostOps0 (W0 m ρ c) (Proc.devRef .tc main_arg2) = W0 m ρ c (Proc.devRef .tc main_arg2)
  kept_through hostOps0
private theorem W1_arg3 (c : Dev nD) : W1 m ρ c (Proc.devRef .tc main_arg3) = m ((c.tc : Thread nD τ).loc main_arg3) := by
  show StableHlo.after hostOps0 (W0 m ρ c) (Proc.devRef .tc main_arg3) = W0 m ρ c (Proc.devRef .tc main_arg3)
  kept_through hostOps0
private theorem W1_arg4 (c : Dev nD) : W1 m ρ c (Proc.devRef .tc main_arg4) = m ((c.tc : Thread nD τ).loc main_arg4) := by
  show StableHlo.after hostOps0 (W0 m ρ c) (Proc.devRef .tc main_arg4) = W0 m ρ c (Proc.devRef .tc main_arg4)
  kept_through hostOps0
private theorem W1_arg6 (c : Dev nD) : W1 m ρ c (Proc.devRef .tc main_arg6) = m ((c.tc : Thread nD τ).loc main_arg6) := by
  show StableHlo.after hostOps0 (W0 m ρ c) (Proc.devRef .tc main_arg6) = W0 m ρ c (Proc.devRef .tc main_arg6)
  kept_through hostOps0
private theorem W1_arg8 (c : Dev nD) : W1 m ρ c (Proc.devRef .tc main_arg8) = m ((c.tc : Thread nD τ).loc main_arg8) := by
  show StableHlo.after hostOps0 (W0 m ρ c) (Proc.devRef .tc main_arg8) = W0 m ρ c (Proc.devRef .tc main_arg8)
  kept_through hostOps0
private theorem W1_arg9 (c : Dev nD) : W1 m ρ c (Proc.devRef .tc main_arg9) = m ((c.tc : Thread nD τ).loc main_arg9) := by
  show StableHlo.after hostOps0 (W0 m ρ c) (Proc.devRef .tc main_arg9) = W0 m ρ c (Proc.devRef .tc main_arg9)
  kept_through hostOps0
private theorem W1_arg10 (c : Dev nD) : W1 m ρ c (Proc.devRef .tc main_arg10) = m ((c.tc : Thread nD τ).loc main_arg10) := by
  show StableHlo.after hostOps0 (W0 m ρ c) (Proc.devRef .tc main_arg10) = W0 m ρ c (Proc.devRef .tc main_arg10)
  kept_through hostOps0
private theorem W1_arg11 (c : Dev nD) : W1 m ρ c (Proc.devRef .tc main_arg11) = m ((c.tc : Thread nD τ).loc main_arg11) := by
  show StableHlo.after hostOps0 (W0 m ρ c) (Proc.devRef .tc main_arg11) = W0 m ρ c (Proc.devRef .tc main_arg11)
  kept_through hostOps0

/-! ### What the first stretch wrote, at the first region's entry -/

private theorem W1_v4 (c : Dev nD) :
    W1 m ρ c (Proc.devRef .tc main_v4) = Host.dotGeneral (F := Ideal) (φ₁ := .f32) (φ₂ := .f32) dot_S1x96_S96x64_S1x64_1_0_0_1_n_n none
      (shapeCast _ (meanK (m ((c.tc : Thread nD τ).loc main_arg0))) shapeCasts_S96_S1x96)
      (m ((c.tc : Thread nD τ).loc main_arg5)) := by
  show StableHlo.after hostOps0 (W0 m ρ c) (Proc.devRef .tc main_v4) = _
  after_results
  rfl
private theorem W1_cst (c : Dev nD) :
    W1 m ρ c (Proc.devRef .tc main_cst) = fun i => FloatOps.ofBits (F := Ideal) .f32 (lit0 (S64x8.rowMajor i)) := by
  show StableHlo.after hostOps0 (W0 m ρ c) (Proc.devRef .tc main_cst) = _
  after_results
  rfl
private theorem W1_cst_0 (c : Dev nD) :
    W1 m ρ c (Proc.devRef .tc main_cst_0) = fun i => FloatOps.ofBits (F := Ideal) .f32 (lit1 (S8x96.rowMajor i)) := by
  show StableHlo.after hostOps0 (W0 m ρ c) (Proc.devRef .tc main_cst_0) = _
  after_results
  rfl

/-! ### At the first region's exit -/

private theorem W2_arg1 (c : Dev nD) : W2 m ρ c (Proc.devRef .tc main_arg1) = m ((c.tc : Thread nD τ).loc main_arg1) :=
  (W2_of_ne m ρ c main_arg1 (by decide)).trans (W1_arg1 m ρ c)
private theorem W2_arg2 (c : Dev nD) : W2 m ρ c (Proc.devRef .tc main_arg2) = m ((c.tc : Thread nD τ).loc main_arg2) :=
  (W2_of_ne m ρ c main_arg2 (by decide)).trans (W1_arg2 m ρ c)
private theorem W2_arg3 (c : Dev nD) : W2 m ρ c (Proc.devRef .tc main_arg3) = m ((c.tc : Thread nD τ).loc main_arg3) :=
  (W2_of_ne m ρ c main_arg3 (by decide)).trans (W1_arg3 m ρ c)
private theorem W2_arg8 (c : Dev nD) : W2 m ρ c (Proc.devRef .tc main_arg8) = m ((c.tc : Thread nD τ).loc main_arg8) :=
  (W2_of_ne m ρ c main_arg8 (by decide)).trans (W1_arg8 m ρ c)
private theorem W2_arg9 (c : Dev nD) : W2 m ρ c (Proc.devRef .tc main_arg9) = m ((c.tc : Thread nD τ).loc main_arg9) :=
  (W2_of_ne m ρ c main_arg9 (by decide)).trans (W1_arg9 m ρ c)
private theorem W2_arg10 (c : Dev nD) : W2 m ρ c (Proc.devRef .tc main_arg10) = m ((c.tc : Thread nD τ).loc main_arg10) :=
  (W2_of_ne m ρ c main_arg10 (by decide)).trans (W1_arg10 m ρ c)
private theorem W2_arg11 (c : Dev nD) : W2 m ρ c (Proc.devRef .tc main_arg11) = m ((c.tc : Thread nD τ).loc main_arg11) :=
  (W2_of_ne m ρ c main_arg11 (by decide)).trans (W1_arg11 m ρ c)
/-- The first region's two results are its output windows 4 and 5. -/
private theorem W2_v6_0 (c : Dev nD) : W2 m ρ c (Proc.devRef .tc main_v6_0) = (dat0 (V1 m ρ) c).arrAt 4 cfg0.N :=
  W2_arr m ρ c 4
private theorem W2_v6_1 (c : Dev nD) : W2 m ρ c (Proc.devRef .tc main_v6_1) = (dat0 (V1 m ρ) c).arrAt 5 cfg0.N :=
  W2_arr m ρ c 5

/-! ## At the first region's entry -/

theorem V1_arg0 (c : Dev nD) : V1 m ρ c main_arg0 = m ((c.tc : Thread nD τ).loc main_arg0) := by
  exact W1_arg0 m ρ c
theorem V1_arg4 (c : Dev nD) : V1 m ρ c main_arg4 = m ((c.tc : Thread nD τ).loc main_arg4) := by
  exact W1_arg4 m ρ c
theorem V1_arg6 (c : Dev nD) : V1 m ρ c main_arg6 = m ((c.tc : Thread nD τ).loc main_arg6) := by
  exact W1_arg6 m ρ c
theorem V1_v5 (c : Dev nD) :
    V1 m ρ c main_v5 = shapeCast _ (m ((c.tc : Thread nD τ).loc main_arg7)) shapeCasts_S96_S1x96 := by
  show StableHlo.after hostOps0 (W0 m ρ c) (Proc.devRef .tc main_v5) = _
  after_results
  rfl

/-! ## At the second region's entry -/

theorem V3_arg1 (c : Dev nD) : V3 m ρ c main_arg1 = m ((c.tc : Thread nD τ).loc main_arg1) := by
  show StableHlo.after hostOps1 (W2 m ρ c) (Proc.devRef .tc main_arg1) = _
  refine Eq.trans ?_ (W2_arg1 m ρ c)
  kept_through hostOps1
theorem V3_arg8 (c : Dev nD) : V3 m ρ c main_arg8 = m ((c.tc : Thread nD τ).loc main_arg8) := by
  show StableHlo.after hostOps1 (W2 m ρ c) (Proc.devRef .tc main_arg8) = _
  refine Eq.trans ?_ (W2_arg8 m ρ c)
  kept_through hostOps1
theorem V3_arg10 (c : Dev nD) : V3 m ρ c main_arg10 = m ((c.tc : Thread nD τ).loc main_arg10) := by
  show StableHlo.after hostOps1 (W2 m ρ c) (Proc.devRef .tc main_arg10) = _
  refine Eq.trans ?_ (W2_arg10 m ρ c)
  kept_through hostOps1
theorem V3_v21 (c : Dev nD) :
    V3 m ρ c main_v21 = shapeCast _ (m ((c.tc : Thread nD τ).loc main_arg9)) shapeCasts_S64_S1x64 := by
  show StableHlo.after hostOps1 (W2 m ρ c) (Proc.devRef .tc main_v21) = _
  after_results
  rw [W2_arg9 m ρ c]
  rfl
theorem V3_v22 (c : Dev nD) :
    V3 m ρ c main_v22 = shapeCast _ (m ((c.tc : Thread nD τ).loc main_arg11)) shapeCasts_S96_S1x96 := by
  show StableHlo.after hostOps1 (W2 m ρ c) (Proc.devRef .tc main_v22) = _
  after_results
  rw [W2_arg11 m ρ c]
  rfl
theorem V3_v13 (c : Dev nD) :
    V3 m ρ c main_v13 = Host.gather gather_S50000x64_S800000x1_S800000x64_1_0_n_n_0_1_164
      ((dat0 (V1 m ρ) c).arrAt 4 cfg0.N) (idxK (m ((c.tc : Thread nD τ).loc main_arg2))) := by
  show StableHlo.after hostOps1 (W2 m ρ c) (Proc.devRef .tc main_v13) = _
  after_results
  rw [W2_v6_0 m ρ c, W2_arg2 m ρ c]
  rfl
theorem V3_v20 (c : Dev nD) :
    V3 m ρ c main_v20 = Host.gather gather_S50000x96_S800000x1_S800000x96_1_0_n_n_0_1_196
      ((dat0 (V1 m ρ) c).arrAt 5 cfg0.N) (idxK (m ((c.tc : Thread nD τ).loc main_arg2))) := by
  show StableHlo.after hostOps1 (W2 m ρ c) (Proc.devRef .tc main_v20) = _
  after_results_simp
  rw [W2_v6_1 m ρ c, W2_arg2 m ρ c]
  rfl
theorem V3_v4 (c : Dev nD) :
    V3 m ρ c main_v4 = Host.dotGeneral (F := Ideal) (φ₁ := .f32) (φ₂ := .f32) dot_S1x96_S96x64_S1x64_1_0_0_1_n_n none
      (shapeCast _ (meanK (m ((c.tc : Thread nD τ).loc main_arg0))) shapeCasts_S96_S1x96)
      (m ((c.tc : Thread nD τ).loc main_arg5)) := by
  show StableHlo.after hostOps1 (W2 m ρ c) (Proc.devRef .tc main_v4) = _
  refine Eq.trans ?_ ((W2_of_ne m ρ c main_v4 (by decide)).trans (W1_v4 m ρ c))
  kept_through hostOps1
theorem V3_cst (c : Dev nD) :
    V3 m ρ c main_cst = fun i => FloatOps.ofBits (F := Ideal) .f32 (lit0 (S64x8.rowMajor i)) := by
  show StableHlo.after hostOps1 (W2 m ρ c) (Proc.devRef .tc main_cst) = _
  refine Eq.trans ?_ ((W2_of_ne m ρ c main_cst (by decide)).trans (W1_cst m ρ c))
  kept_through hostOps1
theorem V3_cst_0 (c : Dev nD) :
    V3 m ρ c main_cst_0 = fun i => FloatOps.ofBits (F := Ideal) .f32 (lit1 (S8x96.rowMajor i)) := by
  show StableHlo.after hostOps1 (W2 m ρ c) (Proc.devRef .tc main_cst_0) = _
  refine Eq.trans ?_ ((W2_of_ne m ρ c main_cst_0 (by decide)).trans (W1_cst_0 m ρ c))
  kept_through hostOps1

/-! ### At the second region's exit -/

/-- The destination indices are no window of either region and no stretch writes them. -/
private theorem W4_arg3 (c : Dev nD) : W4 m ρ c (Proc.devRef .tc main_arg3) = m ((c.tc : Thread nD τ).loc main_arg3) := by
  refine (W4_of_ne m ρ c main_arg3 (by decide)).trans ?_
  show StableHlo.after hostOps1 (W2 m ρ c) (Proc.devRef .tc main_arg3) = _
  refine Eq.trans ?_ (W2_arg3 m ρ c)
  kept_through hostOps1
/-- The second region's other two results are its output windows 11 and 12. -/
private theorem W4_v23_1 (c : Dev nD) : W4 m ρ c (Proc.devRef .tc main_v23_1) = (dat1 (V3 m ρ) c).arrAt 11 cfg1.N :=
  W4_arr m ρ c 11
private theorem W4_v23_2 (c : Dev nD) : W4 m ρ c (Proc.devRef .tc main_v23_2) = (dat1 (V3 m ρ) c).arrAt 12 cfg1.N :=
  W4_arr m ρ c 12

/-! ## At the last boundary -/

theorem W5_v23_0 (c : Dev nD) :
    W5 m ρ c (Proc.devRef .tc main_v23_0) = (dat1 (V3 m ρ) c).arrAt 10 cfg1.N := by
  show StableHlo.after hostOps2 (W4 m ρ c) (Proc.devRef .tc main_v23_0) = _
  refine Eq.trans ?_ (W4_arr m ρ c 10)
  kept_through hostOps2
theorem W5_v36 (c : Dev nD) :
    W5 m ρ c (Proc.devRef .tc main_v36) = tailK ((dat1 (V3 m ρ) c).arrAt 11 cfg1.N) ((dat1 (V3 m ρ) c).arrAt 12 cfg1.N)
      (m ((c.tc : Thread nD τ).loc main_arg3)) := by
  show StableHlo.after hostOps2 (W4 m ρ c) (Proc.devRef .tc main_v36) = _
  after_results_simp
  rw [W4_v23_1 m ρ c, W4_v23_2 m ρ c, W4_arg3 m ρ c]
  rfl

end Cert.KernelIdeal.Val

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  The per-edge attention layer as functions of whole arrays, generic in the number of rows.
  A row of the result depends on the same row of each row-indexed operand only, so one definition serves a block
  of rows and the whole array alike.

  For an edge t with source row K (keys), V (values), the shared query row q, the edge projection
  pe = e * W + b and the scale constant c:
    score (t, j)  = K (t, j) * (q (j) / c) * pe (t, j)
    s (t, a)      = exp (min 5 (max (-5) (sum over k of score (t, k) * sel (k, a))))
    sv (t, j)     = (sum over a of s (t, a) * rep (a, j)) * V (t, j)
    eout (t, j)   = sum over k of score (t, k) * Wo (k, j) + bo (j)
  With sel the 0/1 matrix that has a one at (k, a) exactly when k / 8 = a, the inner sum of s is the sum of the eight
  scores of head a; with rep the 0/1 matrix that has a one at (a, j) exactly when j / 12 = a, the inner sum of sv is
  s (t, j / 12).
-/
import Idealize.ShloMosaic.Lib.ValueIdx
import Idealize.ShloMosaic.PureOps.Ideal.Laws
import Idealize.ShloMosaic.Lib.ValueLayout
import proofs.«109308_j80942953660859_1_alg».proof.Proof.LibPlainDot

noncomputable section

namespace Cert.Spec

open Idealize.ShloMosaic Idealize.ShloMosaic.ValueIdx

/-- A rank-2 array of extended reals. -/
abbrev Arr (r c : Nat) : Type := (⟨2, ![r, c]⟩ : Shape).Idx → EReal

/-- The scale constant: the value of the word both programs divide by. -/
def cS : EReal := Ideal.ofBits .f32 0x403504F3#32
/-- The lower and upper clip bounds. -/
def cLo : EReal := Ideal.ofBits .f32 0xC0A00000#32
def cHi : EReal := Ideal.ofBits .f32 0x40A00000#32

variable {M : Nat}

/-- The plain matrix product: entry (r, c) is the sum over k of a (r, k) * b (k, c). -/
def mm {K N : Nat} (a : Arr M K) (b : Arr K N) : Arr M N :=
  fun j => ∑ k : Fin K, a (ix2 (j 0) k) * b (ix2 k (j 1))

/-- The score of each edge and channel. -/
def score (e : Arr M 96) (ks : Arr M 64) (qv : Arr 1 64) (pew : Arr 96 64) (pb : Arr 1 64) : Arr M 64 :=
  fun j => ks j * Ideal.div (qv (ix2 (0 : Fin 1) (j 1))) cS * Cert.PlainDot.affine e pew pb j

/-- The clipped, exponentiated per-head sum of scores, the head sum taken as a product with the selector `bd`. -/
def sArr (e : Arr M 96) (ks : Arr M 64) (qv : Arr 1 64) (pew : Arr 96 64) (pb : Arr 1 64) (bd : Arr 64 8) : Arr M 8 :=
  fun j => Ideal.exp (min cHi (max cLo (mm (score e ks qv pew pb) bd j)))

/-- The weighted values: the per-head weight spread over the head's channels by the product with `rep`. -/
def svArr (e : Arr M 96) (ks : Arr M 64) (vs : Arr M 96) (qv : Arr 1 64) (pew : Arr 96 64) (pb : Arr 1 64)
    (bd : Arr 64 8) (rep : Arr 8 96) : Arr M 96 :=
  fun j => mm (sArr e ks qv pew pb bd) rep j * vs j

/-- The edge output: the scores times the output weights plus the output bias row. -/
def eoArr (e : Arr M 96) (ks : Arr M 64) (qv : Arr 1 64) (pew : Arr 96 64) (pb : Arr 1 64) (pow : Arr 64 96)
    (pob : Arr 1 96) : Arr M 96 :=
  Cert.PlainDot.affine (score e ks qv pew pb) pow pob

/-- The query row: the mean vector times the query weights, as a one-row array. -/
def qRow (mean : (⟨1, ![96]⟩ : Shape).Idx → EReal) (q : Arr 96 64) : Arr 1 64 :=
  fun j => ∑ k : Fin 96, mean (ix1 k) * q (ix2 k (j 1))

/-- A vector viewed as a one-row array. -/
def rowOfVec {C : Nat} (v : (⟨1, ![C]⟩ : Shape).Idx → EReal) : Arr 1 C :=
  fun j => v (ix1 (j 1))

end Cert.Spec

end
-- ==== Proof.Payloads.lean ====
/-
  Each stored value of the two kernel bodies, as a function of the blocks the body loads, is the specification's
  function at the block's number of rows: the node projections are a plain matrix product and a matrix product plus a
  bias row; the edge body's score, clipped exponentiated head sums, weighted values and edge output are `score`,
  `sArr`, `svArr` and `eoArr`. A change of float format is the identity on the extended reals, a reshape to the same
  shape is the identity, and a product into a zero accumulator is the plain sum of products.
-/
import proofs.«109308_j80942953660859_1_alg».proof.Proof.Gen.KernelIdeal.Skeleton
import proofs.«109308_j80942953660859_1_alg».proof.Proof.Spec

noncomputable section

namespace Cert.KernelIdeal.Val

open Cert.KernelIdeal Cert.KernelIdeal.Gen Cert.Spec
open Idealize.ShloMosaic Idealize.ShloMosaic.ValueIdx

/-- The key projection of a block of node rows. -/
theorem pay_k (v0 : Vec Ideal S2000x96 .f32) (v2 : Vec Ideal S96x64 .f32) :
    k0_pay2 (F := Ideal) v0 v2 = mm (M := 2000) v0 v2 := by
  funext j
  exact Cert.PlainDot.matmul_zero_apply (φ₁ := .bf16) (φ₂ := .bf16) none v0 v2 j

/-- The value projection of a block of node rows, with its bias row. -/
theorem pay_v (v0 : Vec Ideal S2000x96 .f32) (v4 : Vec Ideal S96x96 .f32) (v8 : Vec Ideal S1x96 .f32) :
    k0_pay3 (F := Ideal) v0 v4 v8 = Cert.PlainDot.affine (M := 2000) v0 v4 v8 := by
  unfold k0_pay3
  dsimp only
  rw [shapeCast_self]
  exact Cert.PlainDot.matmul_add_row_eq (φ₁ := .bf16) (φ₂ := .bf16) none v0 v4 v8 broadcasts_S1x96_S2000x96

/-- The scores of a block of edges. -/
theorem pay_score (v0 : Vec Ideal S6400x96 .f32) (v2 : Vec Ideal S96x64 .f32) (v5 : Vec Ideal S1x64 .f32)
    (v9 : Vec Ideal S6400x64 .f32) (v11 : Vec Ideal S1x64 .f32) :
    k1_pay2 (F := Ideal) v0 v2 v5 v9 v11 = score (M := 6400) v0 v9 v11 v2 v5 := by
  have h8 := Cert.PlainDot.matmul_add_row_eq (φ₁ := .bf16) (φ₂ := .bf16) none v0 v2 v5 broadcasts_S1x64_S6400x64
  unfold k1_pay2
  dsimp only
  rw [shapeCast_self, shapeCast_self, shapeCast_self]
  funext j
  obtain ⟨p, q, rfl⟩ : ∃ (p : Fin 6400) (q : Fin 64), j = ix2 p q := ⟨j 0, j 1, eq_ix2 j⟩
  -- the entry at (p, q): the key entry times the broadcast quotient row times the edge projection's entry
  show v9 (ix2 p q)
        * broadcastTo (⟨2, ![6400, 64]⟩ : Shape)
            (divf (F := Ideal) v11 (broadcast S1x64 (Scalar.ofBits (F := Ideal) .f32 0x403504F3#32)))
            broadcasts_S1x64_S6400x64 (ix2 p q)
        * (addf (F := Ideal) (matmul (F := Ideal) (DotDims.plain 6400 96 64) none (φ₁ := .bf16) (φ₂ := .bf16) v0 v2
              (constant (⟨2, ![6400, 64]⟩ : Shape) .f32 0x00000000#32))
            (broadcastTo (⟨2, ![6400, 64]⟩ : Shape) v5 broadcasts_S1x64_S6400x64)) (ix2 p q) = _
  rw [h8, broadcastTo_1b_ab_apply]
  rfl

/-- The head weights of a block of edges. -/
theorem pay_s (v0 : Vec Ideal S6400x96 .f32) (v2 : Vec Ideal S96x64 .f32) (v5 : Vec Ideal S1x64 .f32)
    (v9 : Vec Ideal S6400x64 .f32) (v11 : Vec Ideal S1x64 .f32) (v18 : Vec Ideal S64x8 .f32) :
    k1_pay3 (F := Ideal) v0 v2 v5 v9 v11 v18 = sArr (M := 6400) v0 v9 v11 v2 v5 v18 := by
  unfold k1_pay3
  dsimp only
  rw [pay_score]
  funext j
  exact congrArg (fun x => Ideal.exp (min cHi (max cLo x)))
    (Cert.PlainDot.matmul_zero_apply (φ₁ := .f32) (φ₂ := .f32) (some .fp32) (score (M := 6400) v0 v9 v11 v2 v5) v18 j)

/-- The weighted values of a block of edges. -/
theorem pay_sv (v0 : Vec Ideal S6400x96 .f32) (v2 : Vec Ideal S96x64 .f32) (v5 : Vec Ideal S1x64 .f32)
    (v9 : Vec Ideal S6400x64 .f32) (v11 : Vec Ideal S1x64 .f32) (v18 : Vec Ideal S64x8 .f32)
    (v25 : Vec Ideal S8x96 .f32) (v27 : Vec Ideal S6400x96 .f32) :
    k1_pay4 (F := Ideal) v0 v2 v5 v9 v11 v18 v25 v27 = svArr (M := 6400) v0 v9 v27 v11 v2 v5 v18 v25 := by
  unfold k1_pay4
  dsimp only
  rw [pay_s, shapeCast_self]
  funext j
  exact congrArg (fun x => x * v27 j)
    (Cert.PlainDot.matmul_zero_apply (φ₁ := .f32) (φ₂ := .f32) (some .fp32) (sArr (M := 6400) v0 v9 v11 v2 v5 v18) v25 j)

/-- The edge output of a block of edges. -/
theorem pay_eo (v0 : Vec Ideal S6400x96 .f32) (v2 : Vec Ideal S96x64 .f32) (v5 : Vec Ideal S1x64 .f32)
    (v9 : Vec Ideal S6400x64 .f32) (v11 : Vec Ideal S1x64 .f32) (v30 : Vec Ideal S64x96 .f32)
    (v34 : Vec Ideal S1x96 .f32) :
    k1_pay1 (F := Ideal) (k1_pay5 (F := Ideal) v0 v2 v5 v9 v11 v30) v34 = eoArr (M := 6400) v0 v9 v11 v2 v5 v30 v34 := by
  unfold k1_pay1 k1_pay5
  dsimp only
  rw [pay_score, shapeCast_self]
  exact Cert.PlainDot.matmul_add_row_eq (φ₁ := .bf16) (φ₂ := .bf16) none (score (M := 6400) v0 v9 v11 v2 v5) v30 v34
    broadcasts_S1x96_S6400x96

end Cert.KernelIdeal.Val

end
-- ==== Proof.Region0.lean ====
/-
  The node-projection region, read as whole arrays: after the region its two output arrays hold the key projection
  (the matrix product of the node features with the key weights) and the value projection (the product with the value
  weights plus the bias row), as functions of the arrays the region finds at its entry. Each grid point writes a block
  of 2000 consecutive rows computed from the same rows of the node features; the 25 blocks tile the 50000 rows.
-/
import proofs.«109308_j80942953660859_1_alg».proof.Proof.Gen.KernelIdeal.Frame
import proofs.«109308_j80942953660859_1_alg».proof.Proof.Payloads
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset pair as a constant function. -/
theorem zero_off : (![0, 0] : Fin 2 → Nat) = fun _ => 0 := funext fun a => by fin_cases a <;> rfl

/-- The block index maps over the 25 points: the row-blocked arrays move with the point on the row axis, the whole
    arrays stay at block (0, 0). -/
theorem node_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node-feature block of point `t` is rows `2000 t … 2000 t + 1999` of the node features. -/
theorem feat_blk (c : Dev nD) (t : Fin cfg0.N) (y : S2000x96.Idx) (k : S50000x96.Idx)
    (hk0 : (k 0).val = 2000 * t.val + (y 0).val) (hk1 : (k 1).val = (y 1).val) :
    (iblk0 V c 0 t : Vec Ideal S2000x96 .f32) y = (V c main_arg0 : S50000x96.Idx → EReal) k := by
  obtain ⟨e0, e1, -⟩ := node_idx t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 96 + 1 * (y 1).val = (k 1).val; rw [e1, hk1]; omega

/-- The key-weight block of every point is the whole key-weight array. -/
theorem kw_blk (c : Dev nD) (t : Fin cfg0.N) :
    (iblk0 V c 1 t : Vec Ideal S96x64 .f32) = (V c main_arg4 : S96x64.Idx → EReal) := by
  obtain ⟨-, -, e0, e1, -⟩ := node_idx t
  funext y
  unfold iblk0
  rw [View.read_apply]
  show V c main_arg4 _ = V c main_arg4 _
  congr 1
  funext a
  apply Fin.ext
  match a with
  | ⟨0, _⟩ => show win0_1.index t 0 * 96 + 1 * (y 0).val = (y 0).val; rw [e0]; omega
  | ⟨1, _⟩ => show win0_1.index t 1 * 64 + 1 * (y 1).val = (y 1).val; rw [e1]; omega

/-- The value-weight block of every point is the whole value-weight array. -/
theorem vw_blk (c : Dev nD) (t : Fin cfg0.N) :
    (iblk0 V c 2 t : Vec Ideal S96x96 .f32) = (V c main_arg6 : S96x96.Idx → EReal) := by
  obtain ⟨-, -, -, -, e0, e1, -⟩ := node_idx t
  funext y
  unfold iblk0
  rw [View.read_apply]
  show V c main_arg6 _ = V c main_arg6 _
  congr 1
  funext a
  apply Fin.ext
  match a with
  | ⟨0, _⟩ => show win0_2.index t 0 * 96 + 1 * (y 0).val = (y 0).val; rw [e0]; omega
  | ⟨1, _⟩ => show win0_2.index t 1 * 96 + 1 * (y 1).val = (y 1).val; rw [e1]; omega

/-- The bias-row block of every point is the whole bias row. -/
theorem bias_blk (c : Dev nD) (t : Fin cfg0.N) :
    (iblk0 V c 3 t : Vec Ideal S1x96 .f32) = (V c main_v5 : S1x96.Idx → EReal) := by
  obtain ⟨-, -, -, -, -, -, e0, e1, -⟩ := node_idx t
  funext y
  unfold iblk0
  rw [View.read_apply]
  show V c main_v5 _ = V c main_v5 _
  congr 1
  funext a
  apply Fin.ext
  match a with
  | ⟨0, _⟩ => show win0_3.index t 0 * 1 + 1 * (y 0).val = (y 0).val; rw [e0]; omega
  | ⟨1, _⟩ => show win0_3.index t 1 * 96 + 1 * (y 1).val = (y 1).val; rw [e1]; omega

/-- A matrix product of a block of rows is the same rows of the matrix product of all rows. -/
theorem mm_rows {K N : Nat} (A : Arr 50000 K) (B : Arr K N) (a : Arr 2000 K) (n : Nat)
    (ha : ∀ (y : (⟨2, ![2000, K]⟩ : Shape).Idx) (k : (⟨2, ![50000, K]⟩ : Shape).Idx),
      (k 0).val = 2000 * n + (y 0).val → (k 1).val = (y 1).val → a y = A k)
    (y : (⟨2, ![2000, N]⟩ : Shape).Idx) (i : (⟨2, ![50000, N]⟩ : Shape).Idx)
    (hi0 : (i 0).val = 2000 * n + (y 0).val) (hi1 : (i 1).val = (y 1).val) :
    mm (M := 2000) a B y = mm (M := 50000) A B i := by
  unfold mm
  refine Finset.sum_congr rfl fun k _ => ?_
  have h1 : y 1 = i 1 := Fin.ext hi1.symm
  rw [ha (ix2 (y 0) k) (ix2 (i 0) k) hi0 rfl, h1]

/-- The same for the product plus a bias row. -/
theorem affine_rows {K N : Nat} (A : Arr 50000 K) (B : Arr K N) (b : Arr 1 N) (a : Arr 2000 K) (n : Nat)
    (ha : ∀ (y : (⟨2, ![2000, K]⟩ : Shape).Idx) (k : (⟨2, ![50000, K]⟩ : Shape).Idx),
      (k 0).val = 2000 * n + (y 0).val → (k 1).val = (y 1).val → a y = A k)
    (y : (⟨2, ![2000, N]⟩ : Shape).Idx) (i : (⟨2, ![50000, N]⟩ : Shape).Idx)
    (hi0 : (i 0).val = 2000 * n + (y 0).val) (hi1 : (i 1).val = (y 1).val) :
    Cert.PlainDot.affine (M := 2000) a B b y = Cert.PlainDot.affine (M := 50000) A B b i := by
  unfold Cert.PlainDot.affine
  have h1 : y 1 = i 1 := Fin.ext hi1.symm
  rw [h1]
  refine congrArg (· + b (ix2 (0 : Fin 1) (i 1))) (Finset.sum_congr rfl fun k _ => ?_)
  rw [ha (ix2 (y 0) k) (ix2 (i 0) k) hi0 rfl]

/-- What point `t` writes back to the key-projection array is block `t` of the key projection of all nodes. -/
theorem key_flushed (c : Dev nD) (t : Fin cfg0.N) :
    (dat0 V c).flushed 4 t
      = ((cfg0.win 4).blk t).view.read (Elt Ideal) (mm (M := 50000) (V c main_arg0) (V c main_arg4)) := by
  show (cfg0.win 4).cut (grid0.coords t) ((dat0 V c).after 4 t) = _
  rw [after0_4]
  unfold out0_4
  rw [View.canon_unit_zero zero_off]
  simp only [View.ld_unit_zero (S := S2000x96) zero_off, View.ld_unit_zero (S := S96x64) zero_off]
  rw [pay_k, kw_blk]
  obtain ⟨-, -, -, -, -, -, -, -, e0, e1, -⟩ := node_idx t
  funext y
  rw [View.read_apply]
  refine mm_rows (V c main_arg0) (V c main_arg4) (iblk0 V c 0 t) t.val (fun y k => feat_blk V c t y k) y _ ?_ ?_
  · show win0_4.index t 0 * 2000 + 1 * (y 0).val = _
    rw [e0]; omega
  · show win0_4.index t 1 * 64 + 1 * (y 1).val = _
    rw [e1]; omega

/-- What point `t` writes back to the value-projection array is block `t` of the value projection of all nodes. -/
theorem val_flushed (c : Dev nD) (t : Fin cfg0.N) :
    (dat0 V c).flushed 5 t
      = ((cfg0.win 5).blk t).view.read (Elt Ideal)
          (Cert.PlainDot.affine (M := 50000) (V c main_arg0) (V c main_arg6) (V c main_v5)) := by
  show (cfg0.win 5).cut (grid0.coords t) ((dat0 V c).after 5 t) = _
  rw [after0_5]
  unfold out0_5
  rw [View.canon_unit_zero zero_off]
  simp only [View.ld_unit_zero (S := S2000x96) zero_off, View.ld_unit_zero (S := S96x96) zero_off,
    View.ld_unit_zero (S := S1x96) zero_off]
  rw [pay_v, vw_blk, bias_blk]
  obtain ⟨-, -, -, -, -, -, -, -, -, -, e0, e1⟩ := node_idx t
  funext y
  rw [View.read_apply]
  refine affine_rows (V c main_arg0) (V c main_arg6) (V c main_v5) (iblk0 V c 0 t) t.val
    (fun y k => feat_blk V c t y k) y _ ?_ ?_
  · show win0_5.index t 0 * 2000 + 1 * (y 0).val = _
    rw [e0]; omega
  · show win0_5.index t 1 * 96 + 1 * (y 1).val = _
    rw [e1]; omega

/-- An index of the key-projection array is in point `t`'s block iff each coordinate is in the block's range. -/
theorem key_mem_blk (t : Fin cfg0.N) (i : S50000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v6_0).slice (win0_4.rect t)).set ↔ _
  rw [View.set_slice_whole, Rect.mem_set_unit]
  exact Iff.rfl

/-- The same for the value-projection array. -/
theorem val_mem_blk (t : Fin cfg0.N) (i : S50000x96.Idx) :
    i ∈ ((cfg0.win 5).blk t).view.set ↔ ∀ a : Fin 2, win0_5.index t a * S2000x96.size a ≤ (i a).val
      ∧ (i a).val < win0_5.index t a * S2000x96.size a + S2000x96.size a := by
  show i ∈ ((View.whole main_v6_1).slice (win0_5.rect t)).set ↔ _
  rw [View.set_slice_whole, Rect.mem_set_unit]
  exact Iff.rfl

/-- Row `r` of the key-projection array is in the block of point `r / 2000`. -/
theorem key_cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 25 := rfl
  refine ⟨⟨(i 0).val / 2000, by rw [hN]; omega⟩, flush0_4 _, ?_⟩
  obtain ⟨-, -, -, -, -, -, -, -, e0, e1, -⟩ := node_idx ⟨(i 0).val / 2000, by rw [hN]; omega⟩
  rw [key_mem_blk]
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 64 ≤ (i 1).val ∧ (i 1).val < win0_4.index _ (1 : Fin 2) * 64 + 64
    rw [e1]; omega

/-- Row `r` of the value-projection array is in the block of point `r / 2000`. -/
theorem val_cover (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 25 := rfl
  refine ⟨⟨(i 0).val / 2000, by rw [hN]; omega⟩, flush0_5 _, ?_⟩
  obtain ⟨-, -, -, -, -, -, -, -, -, -, e0, e1⟩ := node_idx ⟨(i 0).val / 2000, by rw [hN]; omega⟩
  rw [val_mem_blk]
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 96 ≤ (i 1).val ∧ (i 1).val < win0_5.index _ (1 : Fin 2) * 96 + 96
    rw [e1]; omega

/-- The key projection of all nodes. -/
theorem final0_4 (c : Dev nD) :
    (dat0 V c).arrAt 4 cfg0.N = mm (M := 50000) (V c main_arg0) (V c main_arg4) :=
  (dat0 V c).arrAt_eq_of_cover 4 (mm (M := 50000) (V c main_arg0) (V c main_arg4))
    (fun t _ => key_flushed V c t) key_cover

/-- The value projection of all nodes. -/
theorem final0_5 (c : Dev nD) :
    (dat0 V c).arrAt 5 cfg0.N = Cert.PlainDot.affine (M := 50000) (V c main_arg0) (V c main_arg6) (V c main_v5) :=
  (dat0 V c).arrAt_eq_of_cover 5 (Cert.PlainDot.affine (M := 50000) (V c main_arg0) (V c main_arg6) (V c main_v5))
    (fun t _ => val_flushed V c t) val_cover

end Cert.KernelIdeal.Val

end
-- ==== Proof.Region1.lean ====
/-
  The edge region, read as whole arrays: after the region its three output arrays hold the edge output, the weighted
  values and the head weights of all 800000 edges, as the specification's functions of the arrays the region finds at
  its entry. Each grid point writes a block of 6400 consecutive rows computed from the same rows of the edge features
  and of the gathered keys and values, and from the whole small operands; the 125 blocks tile the rows.
-/
import proofs.«109308_j80942953660859_1_alg».proof.Proof.Gen.KernelIdeal.Frame
import proofs.«109308_j80942953660859_1_alg».proof.Proof.Payloads
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-! ## Row locality of the specification's functions

Each of the specification's functions, at row r of a block, reads row r of its row-indexed operands only. So if row r
of the block operands is row R of the whole operands, the function of the blocks at (r, q) is the function of the whole
arrays at (R, q). -/

section RowLocal

variable {m M : Nat}

/-- A matrix product plus a bias row, at a row, reads that row of the left operand only. -/
theorem affine_row {K N : Nat} (a : Arr m K) (A : Arr M K) (B : Arr K N) (b : Arr 1 N) (r : Fin m) (R : Fin M)
    (h : ∀ k, a (ix2 r k) = A (ix2 R k)) (q : Fin N) :
    Cert.PlainDot.affine a B b (ix2 r q) = Cert.PlainDot.affine A B b (ix2 R q) :=
  congrArg (· + b (ix2 (0 : Fin 1) q))
    (Finset.sum_congr rfl fun k _ => congrArg (· * B (ix2 k q)) (h k))

/-- A matrix product, at a row, reads that row of the left operand only. -/
theorem mm_row {K N : Nat} (a : Arr m K) (A : Arr M K) (B : Arr K N) (r : Fin m) (R : Fin M)
    (h : ∀ k, a (ix2 r k) = A (ix2 R k)) (q : Fin N) :
    mm a B (ix2 r q) = mm A B (ix2 R q) :=
  Finset.sum_congr rfl fun k _ => congrArg (· * B (ix2 k q)) (h k)

variable (e : Arr m 96) (E : Arr M 96) (ks : Arr m 64) (KS : Arr M 64) (qv : Arr 1 64) (pew : Arr 96 64)
  (pb : Arr 1 64) (r : Fin m) (R : Fin M)
  (he : ∀ k, e (ix2 r k) = E (ix2 R k)) (hk : ∀ k, ks (ix2 r k) = KS (ix2 R k))

include he hk

/-- The score of an edge reads that edge's feature row and key row only. -/
theorem score_row (q : Fin 64) :
    score e ks qv pew pb (ix2 r q) = score E KS qv pew pb (ix2 R q) := by
  show ks (ix2 r q) * Ideal.div (qv (ix2 (0 : Fin 1) q)) cS * Cert.PlainDot.affine e pew pb (ix2 r q)
    = KS (ix2 R q) * Ideal.div (qv (ix2 (0 : Fin 1) q)) cS * Cert.PlainDot.affine E pew pb (ix2 R q)
  rw [hk q, affine_row e E pew pb r R he q]

/-- The head weights of an edge read that edge's rows only. -/
theorem sArr_row (bd : Arr 64 8) (q : Fin 8) :
    sArr e ks qv pew pb bd (ix2 r q) = sArr E KS qv pew pb bd (ix2 R q) := by
  show Ideal.exp (min cHi (max cLo (mm (score e ks qv pew pb) bd (ix2 r q))))
    = Ideal.exp (min cHi (max cLo (mm (score E KS qv pew pb) bd (ix2 R q))))
  rw [mm_row (score e ks qv pew pb) (score E KS qv pew pb) bd r R
    (fun k => score_row e E ks KS qv pew pb r R he hk k) q]

/-- The edge output of an edge reads that edge's rows only. -/
theorem eoArr_row (pow : Arr 64 96) (pob : Arr 1 96) (q : Fin 96) :
    eoArr e ks qv pew pb pow pob (ix2 r q) = eoArr E KS qv pew pb pow pob (ix2 R q) :=
  affine_row (score e ks qv pew pb) (score E KS qv pew pb) pow pob r R
    (fun k => score_row e E ks KS qv pew pb r R he hk k) q

/-- The weighted values of an edge read that edge's rows only. -/
theorem svArr_row (vs : Arr m 96) (VS : Arr M 96) (hv : ∀ k, vs (ix2 r k) = VS (ix2 R k)) (bd : Arr 64 8)
    (rep : Arr 8 96) (q : Fin 96) :
    svArr e ks vs qv pew pb bd rep (ix2 r q) = svArr E KS VS qv pew pb bd rep (ix2 R q) := by
  show mm (sArr e ks qv pew pb bd) rep (ix2 r q) * vs (ix2 r q)
    = mm (sArr E KS qv pew pb bd) rep (ix2 R q) * VS (ix2 R q)
  rw [hv q, mm_row (sArr e ks qv pew pb bd) (sArr E KS qv pew pb bd) rep r R
    (fun k => sArr_row e E ks KS qv pew pb r R he hk bd k) q]

end RowLocal

variable (V : (c : Dev nD) → (b : Ref sig .tc) → Buf (Elt Ideal) ((c : Thread nD τ).loc b))

/-! ## The index maps and the blocks the body reads -/

/-- The zero offsets of the body's whole-buffer accesses. -/
theorem zeroOff1 : (![0, 0] : Fin 2 → Nat) = fun _ => 0 := funext fun a => by fin_cases a <;> rfl

/-- The region has 125 grid points. -/
theorem points1 : cfg1.N = 125 := rfl

/-- The index maps, decided over the grid: at point t the row-blocked windows (edge features, gathered keys and values,
    and the three outputs) sit at block (t, 0). -/
theorem rowIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- The index maps, decided over the grid: the small operands' windows sit at block (0, 0) at every point. -/
theorem smallIdx1 : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row r of point t's block of the edge features is row 6400 t + r of the array. -/
theorem featBlk1 (c : Dev nD) (t : Fin cfg1.N) (r : Fin 6400) (R : Fin 800000) (hR : R.val = 6400 * t.val + r.val)
    (k : Fin 96) :
    (iblk1 V c 0 t : Arr 6400 96) (ix2 r k) = (V c main_arg1 : Arr 800000 96) (ix2 R k) := by
  obtain ⟨h0, h1, -⟩ := rowIdx1 t
  show (V c main_arg1 : Arr 800000 96) (((cfg1.win 0).blk t).view.emb (ix2 r k)) = _
  refine congrArg (V c main_arg1 : Arr 800000 96) (funext fun a => Fin.ext ?_)
  match a with
  | ⟨0, _⟩ => show win1_0.index t (0 : Fin 2) * 6400 + 1 * r.val = R.val; rw [h0, hR]; omega
  | ⟨1, _⟩ => show win1_0.index t (1 : Fin 2) * 96 + 1 * k.val = k.val; rw [h1]; omega

/-- Row r of point t's block of the gathered keys is row 6400 t + r of the array. -/
theorem keyBlk1 (c : Dev nD) (t : Fin cfg1.N) (r : Fin 6400) (R : Fin 800000) (hR : R.val = 6400 * t.val + r.val)
    (k : Fin 64) :
    (iblk1 V c 1 t : Arr 6400 64) (ix2 r k) = (V c main_v13 : Arr 800000 64) (ix2 R k) := by
  obtain ⟨-, -, h0, h1, -⟩ := rowIdx1 t
  show (V c main_v13 : Arr 800000 64) (((cfg1.win 1).blk t).view.emb (ix2 r k)) = _
  refine congrArg (V c main_v13 : Arr 800000 64) (funext fun a => Fin.ext ?_)
  match a with
  | ⟨0, _⟩ => show win1_1.index t (0 : Fin 2) * 6400 + 1 * r.val = R.val; rw [h0, hR]; omega
  | ⟨1, _⟩ => show win1_1.index t (1 : Fin 2) * 64 + 1 * k.val = k.val; rw [h1]; omega

/-- Row r of point t's block of the gathered values is row 6400 t + r of the array. -/
theorem valBlk1 (c : Dev nD) (t : Fin cfg1.N) (r : Fin 6400) (R : Fin 800000) (hR : R.val = 6400 * t.val + r.val)
    (k : Fin 96) :
    (iblk1 V c 2 t : Arr 6400 96) (ix2 r k) = (V c main_v20 : Arr 800000 96) (ix2 R k) := by
  obtain ⟨-, -, -, -, h0, h1, -⟩ := rowIdx1 t
  show (V c main_v20 : Arr 800000 96) (((cfg1.win 2).blk t).view.emb (ix2 r k)) = _
  refine congrArg (V c main_v20 : Arr 800000 96) (funext fun a => Fin.ext ?_)
  match a with
  | ⟨0, _⟩ => show win1_2.index t (0 : Fin 2) * 6400 + 1 * r.val = R.val; rw [h0, hR]; omega
  | ⟨1, _⟩ => show win1_2.index t (1 : Fin 2) * 96 + 1 * k.val = k.val; rw [h1]; omega

/-- The query row's window holds the whole one-row array at every point. -/
theorem qBlk1 (c : Dev nD) (t : Fin cfg1.N) : (iblk1 V c 3 t : Arr 1 64) = (V c main_v4 : Arr 1 64) := by
  obtain ⟨h0, h1, -⟩ := smallIdx1 t
  funext y
  show (V c main_v4 : Arr 1 64) (((cfg1.win 3).blk t).view.emb y) = _
  refine congrArg (V c main_v4 : Arr 1 64) (funext fun a => Fin.ext ?_)
  match a with
  | ⟨0, _⟩ => show win1_3.index t (0 : Fin 2) * 1 + 1 * (y 0).val = (y 0).val; rw [h0]; omega
  | ⟨1, _⟩ => show win1_3.index t (1 : Fin 2) * 64 + 1 * (y 1).val = (y 1).val; rw [h1]; omega

/-- The edge projection's weights: the window holds the whole array at every point. -/
theorem projWBlk1 (c : Dev nD) (t : Fin cfg1.N) : (iblk1 V c 4 t : Arr 96 64) = (V c main_arg8 : Arr 96 64) := by
  obtain ⟨-, -, h0, h1, -⟩ := smallIdx1 t
  funext y
  show (V c main_arg8 : Arr 96 64) (((cfg1.win 4).blk t).view.emb y) = _
  refine congrArg (V c main_arg8 : Arr 96 64) (funext fun a => Fin.ext ?_)
  match a with
  | ⟨0, _⟩ => show win1_4.index t (0 : Fin 2) * 96 + 1 * (y 0).val = (y 0).val; rw [h0]; omega
  | ⟨1, _⟩ => show win1_4.index t (1 : Fin 2) * 64 + 1 * (y 1).val = (y 1).val; rw [h1]; omega

/-- The edge projection's bias row: the window holds the whole array at every point. -/
theorem projBBlk1 (c : Dev nD) (t : Fin cfg1.N) : (iblk1 V c 5 t : Arr 1 64) = (V c main_v21 : Arr 1 64) := by
  obtain ⟨-, -, -, -, h0, h1, -⟩ := smallIdx1 t
  funext y
  show (V c main_v21 : Arr 1 64) (((cfg1.win 5).blk t).view.emb y) = _
  refine congrArg (V c main_v21 : Arr 1 64) (funext fun a => Fin.ext ?_)
  match a with
  | ⟨0, _⟩ => show win1_5.index t (0 : Fin 2) * 1 + 1 * (y 0).val = (y 0).val; rw [h0]; omega
  | ⟨1, _⟩ => show win1_5.index t (1 : Fin 2) * 64 + 1 * (y 1).val = (y 1).val; rw [h1]; omega

/-- The output weights: the window holds the whole array at every point. -/
theorem outWBlk1 (c : Dev nD) (t : Fin cfg1.N) : (iblk1 V c 6 t : Arr 64 96) = (V c main_arg10 : Arr 64 96) := by
  obtain ⟨-, -, -, -, -, -, h0, h1, -⟩ := smallIdx1 t
  funext y
  show (V c main_arg10 : Arr 64 96) (((cfg1.win 6).blk t).view.emb y) = _
  refine congrArg (V c main_arg10 : Arr 64 96) (funext fun a => Fin.ext ?_)
  match a with
  | ⟨0, _⟩ => show win1_6.index t (0 : Fin 2) * 64 + 1 * (y 0).val = (y 0).val; rw [h0]; omega
  | ⟨1, _⟩ => show win1_6.index t (1 : Fin 2) * 96 + 1 * (y 1).val = (y 1).val; rw [h1]; omega

/-- The output bias row: the window holds the whole array at every point. -/
theorem outBBlk1 (c : Dev nD) (t : Fin cfg1.N) : (iblk1 V c 7 t : Arr 1 96) = (V c main_v22 : Arr 1 96) := by
  obtain ⟨-, -, -, -, -, -, -, -, h0, h1, -⟩ := smallIdx1 t
  funext y
  show (V c main_v22 : Arr 1 96) (((cfg1.win 7).blk t).view.emb y) = _
  refine congrArg (V c main_v22 : Arr 1 96) (funext fun a => Fin.ext ?_)
  match a with
  | ⟨0, _⟩ => show win1_7.index t (0 : Fin 2) * 1 + 1 * (y 0).val = (y 0).val; rw [h0]; omega
  | ⟨1, _⟩ => show win1_7.index t (1 : Fin 2) * 96 + 1 * (y 1).val = (y 1).val; rw [h1]; omega

/-- The head selector: the window holds the whole array at every point. -/
theorem selBlk1 (c : Dev nD) (t : Fin cfg1.N) : (iblk1 V c 8 t : Arr 64 8) = (V c main_cst : Arr 64 8) := by
  obtain ⟨-, -, -, -, -, -, -, -, -, -, h0, h1, -⟩ := smallIdx1 t
  funext y
  show (V c main_cst : Arr 64 8) (((cfg1.win 8).blk t).view.emb y) = _
  refine congrArg (V c main_cst : Arr 64 8) (funext fun a => Fin.ext ?_)
  match a with
  | ⟨0, _⟩ => show win1_8.index t (0 : Fin 2) * 64 + 1 * (y 0).val = (y 0).val; rw [h0]; omega
  | ⟨1, _⟩ => show win1_8.index t (1 : Fin 2) * 8 + 1 * (y 1).val = (y 1).val; rw [h1]; omega

/-- The head-to-channel spread: the window holds the whole array at every point. -/
theorem repBlk1 (c : Dev nD) (t : Fin cfg1.N) : (iblk1 V c 9 t : Arr 8 96) = (V c main_cst_0 : Arr 8 96) := by
  obtain ⟨-, -, -, -, -, -, -, -, -, -, -, -, h0, h1⟩ := smallIdx1 t
  funext y
  show (V c main_cst_0 : Arr 8 96) (((cfg1.win 9).blk t).view.emb y) = _
  refine congrArg (V c main_cst_0 : Arr 8 96) (funext fun a => Fin.ext ?_)
  match a with
  | ⟨0, _⟩ => show win1_9.index t (0 : Fin 2) * 8 + 1 * (y 0).val = (y 0).val; rw [h0]; omega
  | ⟨1, _⟩ => show win1_9.index t (1 : Fin 2) * 96 + 1 * (y 1).val = (y 1).val; rw [h1]; omega

/-! ## What each point writes back -/

/-- Point t writes back rows 6400 t … 6400 t + 6399 of the head weights of all edges. -/
theorem wrote1_12 (c : Dev nD) (t : Fin cfg1.N) :
    (dat1 V c).flushed 12 t = ((cfg1.win 12).blk t).view.read (Elt Ideal)
      (sArr (M := 800000) (V c main_arg1) (V c main_v13) (V c main_v4) (V c main_arg8) (V c main_v21) (V c main_cst)) := by
  show (cfg1.win 12).cut (grid1.coords t) ((dat1 V c).after 12 t) = _
  rw [after1_12]
  unfold out1_12
  rw [View.canon_unit_zero zeroOff1]
  simp only [View.ld_unit_zero (S := S6400x96) zeroOff1, View.ld_unit_zero (S := S96x64) zeroOff1,
    View.ld_unit_zero (S := S1x64) zeroOff1, View.ld_unit_zero (S := S6400x64) zeroOff1,
    View.ld_unit_zero (S := S64x8) zeroOff1]
  rw [pay_s]
  have ht : t.val < 125 := t.isLt
  funext y
  obtain ⟨r, q, rfl⟩ : ∃ (r : Fin 6400) (q : Fin 8), y = ix2 r q := ⟨y 0, y 1, eq_ix2 y⟩
  obtain ⟨-, -, -, -, -, -, -, -, -, -, h0, h1⟩ := rowIdx1 t
  have hemb : ((cfg1.win 12).blk t).view.emb (ix2 r q)
      = (ix2 (⟨6400 * t.val + r.val, by omega⟩ : Fin 800000) q : (⟨2, ![800000, 8]⟩ : Shape).Idx) :=
    funext fun a => Fin.ext (by
      match a with
      | ⟨0, _⟩ => show win1_12.index t (0 : Fin 2) * 6400 + 1 * r.val = 6400 * t.val + r.val; rw [h0]; omega
      | ⟨1, _⟩ => show win1_12.index t (1 : Fin 2) * 8 + 1 * q.val = q.val; rw [h1]; omega)
  show sArr (M := 6400) (iblk1 V c 0 t) (iblk1 V c 1 t) (iblk1 V c 3 t) (iblk1 V c 4 t) (iblk1 V c 5 t) (iblk1 V c 8 t) (ix2 r q)
    = sArr (M := 800000) (V c main_arg1) (V c main_v13) (V c main_v4) (V c main_arg8) (V c main_v21) (V c main_cst)
        (((cfg1.win 12).blk t).view.emb (ix2 r q))
  rw [hemb, qBlk1 V c t, projWBlk1 V c t, projBBlk1 V c t, selBlk1 V c t]
  exact sArr_row (iblk1 V c 0 t) (V c main_arg1) (iblk1 V c 1 t) (V c main_v13) (V c main_v4) (V c main_arg8)
    (V c main_v21) r ⟨6400 * t.val + r.val, by omega⟩ (fun k => featBlk1 V c t r _ rfl k) (fun k => keyBlk1 V c t r _ rfl k)
    (V c main_cst) q

/-- Point t writes back rows 6400 t … 6400 t + 6399 of the edge output of all edges. -/
theorem wrote1_10 (c : Dev nD) (t : Fin cfg1.N) :
    (dat1 V c).flushed 10 t = ((cfg1.win 10).blk t).view.read (Elt Ideal)
      (eoArr (M := 800000) (V c main_arg1) (V c main_v13) (V c main_v4) (V c main_arg8) (V c main_v21) (V c main_arg10)
        (V c main_v22)) := by
  show (cfg1.win 10).cut (grid1.coords t) ((dat1 V c).after 10 t) = _
  rw [after1_10]
  unfold out1_10
  rw [View.canon_unit_zero zeroOff1]
  simp only [View.ld_unit_zero (S := S6400x96) zeroOff1,
    View.ld_unit_zero (S := S96x64) zeroOff1,
    View.ld_unit_zero (S := S1x64) zeroOff1,
    View.ld_unit_zero (S := S6400x64) zeroOff1,
    View.ld_unit_zero (S := S64x96) zeroOff1,
    View.ld_unit_zero (S := S1x96) zeroOff1]
  rw [pay_eo]
  have ht : t.val < 125 := t.isLt
  funext y
  obtain ⟨r, q, rfl⟩ : ∃ (r : Fin 6400) (q : Fin 96), y = ix2 r q := ⟨y 0, y 1, eq_ix2 y⟩
  obtain ⟨-, -, -, -, -, -, h0, h1, -⟩ := rowIdx1 t
  have hemb : ((cfg1.win 10).blk t).view.emb (ix2 r q)
      = (ix2 (⟨6400 * t.val + r.val, by omega⟩ : Fin 800000) q : (⟨2, ![800000, 96]⟩ : Shape).Idx) :=
    funext fun a => Fin.ext (by
      match a with
      | ⟨0, _⟩ => show win1_10.index t (0 : Fin 2) * 6400 + 1 * r.val = 6400 * t.val + r.val; rw [h0]; omega
      | ⟨1, _⟩ => show win1_10.index t (1 : Fin 2) * 96 + 1 * q.val = q.val; rw [h1]; omega)
  show eoArr (M := 6400) (iblk1 V c 0 t) (iblk1 V c 1 t) (iblk1 V c 3 t) (iblk1 V c 4 t) (iblk1 V c 5 t) (iblk1 V c 6 t)
      (iblk1 V c 7 t) (ix2 r q)
    = eoArr (M := 800000) (V c main_arg1) (V c main_v13) (V c main_v4) (V c main_arg8) (V c main_v21) (V c main_arg10)
        (V c main_v22)
        (((cfg1.win 10).blk t).view.emb (ix2 r q))
  rw [hemb, qBlk1 V c t, projWBlk1 V c t, projBBlk1 V c t, outWBlk1 V c t, outBBlk1 V c t]
  exact eoArr_row (iblk1 V c 0 t) (V c main_arg1) (iblk1 V c 1 t) (V c main_v13) (V c main_v4) (V c main_arg8)
    (V c main_v21) r ⟨6400 * t.val + r.val, by omega⟩ (fun k => featBlk1 V c t r _ rfl k) (fun k => keyBlk1 V c t r _ rfl k)
    (V c main_arg10) (V c main_v22) q

/-- Point t writes back rows 6400 t … 6400 t + 6399 of the weighted values of all edges. -/
theorem wrote1_11 (c : Dev nD) (t : Fin cfg1.N) :
    (dat1 V c).flushed 11 t = ((cfg1.win 11).blk t).view.read (Elt Ideal)
      (svArr (M := 800000) (V c main_arg1) (V c main_v13) (V c main_v20) (V c main_v4) (V c main_arg8) (V c main_v21)
        (V c main_cst) (V c main_cst_0)) := by
  show (cfg1.win 11).cut (grid1.coords t) ((dat1 V c).after 11 t) = _
  rw [after1_11]
  unfold out1_11
  rw [View.canon_unit_zero zeroOff1]
  simp only [View.ld_unit_zero (S := S6400x96) zeroOff1,
    View.ld_unit_zero (S := S96x64) zeroOff1,
    View.ld_unit_zero (S := S1x64) zeroOff1,
    View.ld_unit_zero (S := S6400x64) zeroOff1,
    View.ld_unit_zero (S := S64x8) zeroOff1,
    View.ld_unit_zero (S := S8x96) zeroOff1]
  rw [pay_sv]
  have ht : t.val < 125 := t.isLt
  funext y
  obtain ⟨r, q, rfl⟩ : ∃ (r : Fin 6400) (q : Fin 96), y = ix2 r q := ⟨y 0, y 1, eq_ix2 y⟩
  obtain ⟨-, -, -, -, -, -, -, -, h0, h1, -⟩ := rowIdx1 t
  have hemb : ((cfg1.win 11).blk t).view.emb (ix2 r q)
      = (ix2 (⟨6400 * t.val + r.val, by omega⟩ : Fin 800000) q : (⟨2, ![800000, 96]⟩ : Shape).Idx) :=
    funext fun a => Fin.ext (by
      match a with
      | ⟨0, _⟩ => show win1_11.index t (0 : Fin 2) * 6400 + 1 * r.val = 6400 * t.val + r.val; rw [h0]; omega
      | ⟨1, _⟩ => show win1_11.index t (1 : Fin 2) * 96 + 1 * q.val = q.val; rw [h1]; omega)
  show svArr (M := 6400) (iblk1 V c 0 t) (iblk1 V c 1 t) (iblk1 V c 2 t) (iblk1 V c 3 t) (iblk1 V c 4 t) (iblk1 V c 5 t)
      (iblk1 V c 8 t) (iblk1 V c 9 t) (ix2 r q)
    = svArr (M := 800000) (V c main_arg1) (V c main_v13) (V c main_v20) (V c main_v4) (V c main_arg8) (V c main_v21)
        (V c main_cst) (V c main_cst_0)
        (((cfg1.win 11).blk t).view.emb (ix2 r q))
  rw [hemb, qBlk1 V c t, projWBlk1 V c t, projBBlk1 V c t, selBlk1 V c t, repBlk1 V c t]
  exact svArr_row (iblk1 V c 0 t) (V c main_arg1) (iblk1 V c 1 t) (V c main_v13) (V c main_v4) (V c main_arg8)
    (V c main_v21) r ⟨6400 * t.val + r.val, by omega⟩ (fun k => featBlk1 V c t r _ rfl k) (fun k => keyBlk1 V c t r _ rfl k)
    (iblk1 V c 2 t) (V c main_v20) (fun k => valBlk1 V c t r _ rfl k) (V c main_cst) (V c main_cst_0) q

/-! ## The blocks tile the arrays -/

/-- An index of output array 10 is in point t's block iff each coordinate is in the block's range on its axis. -/
theorem inBlk1_10 (t : Fin cfg1.N) (i : S800000x96.Idx) :
    i ∈ ((cfg1.win 10).blk t).view.set ↔ ∀ a : Fin 2, win1_10.index t a * S6400x96.size a ≤ (i a).val
      ∧ (i a).val < win1_10.index t a * S6400x96.size a + S6400x96.size a := by
  show i ∈ ((View.whole main_v23_0).slice (win1_10.rect t)).set ↔ _
  rw [View.set_slice_whole, Rect.mem_set_unit]
  exact Iff.rfl

/-- The 125 blocks of 6400 rows tile output array 10: row r lies in the block of point r / 6400, which is written back. -/
theorem tiles1_10 (i : S800000x96.Idx) :
    ∃ t : Fin cfg1.N, (cfg1.win 10).flush t = true ∧ i ∈ ((cfg1.win 10).blk t).view.set := by
  have hi0 : (i 0).val < 800000 := (i 0).isLt
  have hi1 : (i 1).val < 96 := (i 1).isLt
  obtain ⟨t, htv⟩ : ∃ t : Fin cfg1.N, t.val = (i 0).val / 6400 :=
    ⟨⟨(i 0).val / 6400, by show (i 0).val / 6400 < 125; omega⟩, rfl⟩
  obtain ⟨-, -, -, -, -, -, h0, h1, -⟩ := rowIdx1 t
  refine ⟨t, flush1_10 t, ?_⟩
  rw [inBlk1_10]
  intro a
  match a with
  | ⟨0, _⟩ =>
    show win1_10.index t (0 : Fin 2) * 6400 ≤ (i 0).val ∧ (i 0).val < win1_10.index t (0 : Fin 2) * 6400 + 6400
    rw [h0, htv]; omega
  | ⟨1, _⟩ =>
    show win1_10.index t (1 : Fin 2) * 96 ≤ (i 1).val ∧ (i 1).val < win1_10.index t (1 : Fin 2) * 96 + 96
    rw [h1]; omega

/-- An index of output array 11 is in point t's block iff each coordinate is in the block's range on its axis. -/
theorem inBlk1_11 (t : Fin cfg1.N) (i : S800000x96.Idx) :
    i ∈ ((cfg1.win 11).blk t).view.set ↔ ∀ a : Fin 2, win1_11.index t a * S6400x96.size a ≤ (i a).val
      ∧ (i a).val < win1_11.index t a * S6400x96.size a + S6400x96.size a := by
  show i ∈ ((View.whole main_v23_1).slice (win1_11.rect t)).set ↔ _
  rw [View.set_slice_whole, Rect.mem_set_unit]
  exact Iff.rfl

/-- The 125 blocks of 6400 rows tile output array 11: row r lies in the block of point r / 6400, which is written back. -/
theorem tiles1_11 (i : S800000x96.Idx) :
    ∃ t : Fin cfg1.N, (cfg1.win 11).flush t = true ∧ i ∈ ((cfg1.win 11).blk t).view.set := by
  have hi0 : (i 0).val < 800000 := (i 0).isLt
  have hi1 : (i 1).val < 96 := (i 1).isLt
  obtain ⟨t, htv⟩ : ∃ t : Fin cfg1.N, t.val = (i 0).val / 6400 :=
    ⟨⟨(i 0).val / 6400, by show (i 0).val / 6400 < 125; omega⟩, rfl⟩
  obtain ⟨-, -, -, -, -, -, -, -, h0, h1, -⟩ := rowIdx1 t
  refine ⟨t, flush1_11 t, ?_⟩
  rw [inBlk1_11]
  intro a
  match a with
  | ⟨0, _⟩ =>
    show win1_11.index t (0 : Fin 2) * 6400 ≤ (i 0).val ∧ (i 0).val < win1_11.index t (0 : Fin 2) * 6400 + 6400
    rw [h0, htv]; omega
  | ⟨1, _⟩ =>
    show win1_11.index t (1 : Fin 2) * 96 ≤ (i 1).val ∧ (i 1).val < win1_11.index t (1 : Fin 2) * 96 + 96
    rw [h1]; omega

/-- An index of output array 12 is in point t's block iff each coordinate is in the block's range on its axis. -/
theorem inBlk1_12 (t : Fin cfg1.N) (i : S800000x8.Idx) :
    i ∈ ((cfg1.win 12).blk t).view.set ↔ ∀ a : Fin 2, win1_12.index t a * S6400x8.size a ≤ (i a).val
      ∧ (i a).val < win1_12.index t a * S6400x8.size a + S6400x8.size a := by
  show i ∈ ((View.whole main_v23_2).slice (win1_12.rect t)).set ↔ _
  rw [View.set_slice_whole, Rect.mem_set_unit]
  exact Iff.rfl

/-- The 125 blocks of 6400 rows tile output array 12: row r lies in the block of point r / 6400, which is written back. -/
theorem tiles1_12 (i : S800000x8.Idx) :
    ∃ t : Fin cfg1.N, (cfg1.win 12).flush t = true ∧ i ∈ ((cfg1.win 12).blk t).view.set := by
  have hi0 : (i 0).val < 800000 := (i 0).isLt
  have hi1 : (i 1).val < 8 := (i 1).isLt
  obtain ⟨t, htv⟩ : ∃ t : Fin cfg1.N, t.val = (i 0).val / 6400 :=
    ⟨⟨(i 0).val / 6400, by show (i 0).val / 6400 < 125; omega⟩, rfl⟩
  obtain ⟨-, -, -, -, -, -, -, -, -, -, h0, h1⟩ := rowIdx1 t
  refine ⟨t, flush1_12 t, ?_⟩
  rw [inBlk1_12]
  intro a
  match a with
  | ⟨0, _⟩ =>
    show win1_12.index t (0 : Fin 2) * 6400 ≤ (i 0).val ∧ (i 0).val < win1_12.index t (0 : Fin 2) * 6400 + 6400
    rw [h0, htv]; omega
  | ⟨1, _⟩ =>
    show win1_12.index t (1 : Fin 2) * 8 ≤ (i 1).val ∧ (i 1).val < win1_12.index t (1 : Fin 2) * 8 + 8
    rw [h1]; omega

/-! ## The arrays after the region -/

/-- The edge output of all edges. -/
theorem final1_10 (c : Dev nD) :
    (dat1 V c).arrAt 10 cfg1.N = eoArr (M := 800000) (V c main_arg1) (V c main_v13) (V c main_v4) (V c main_arg8)
      (V c main_v21) (V c main_arg10) (V c main_v22) := by
  exact (dat1 V c).arrAt_eq_of_cover 10 _ (fun t _ => wrote1_10 V c t) (fun i => tiles1_10 i)

/-- The weighted values of all edges. -/
theorem final1_11 (c : Dev nD) :
    (dat1 V c).arrAt 11 cfg1.N = svArr (M := 800000) (V c main_arg1) (V c main_v13) (V c main_v20) (V c main_v4)
      (V c main_arg8) (V c main_v21) (V c main_cst) (V c main_cst_0) := by
  exact (dat1 V c).arrAt_eq_of_cover 11 _ (fun t _ => wrote1_11 V c t) (fun i => tiles1_11 i)

/-- The head weights of all edges. -/
theorem final1_12 (c : Dev nD) :
    (dat1 V c).arrAt 12 cfg1.N = sArr (M := 800000) (V c main_arg1) (V c main_v13) (V c main_v4) (V c main_arg8)
      (V c main_v21) (V c main_cst) := by
  exact (dat1 V c).arrAt_eq_of_cover 12 _ (fun t _ => wrote1_12 V c t) (fun i => tiles1_12 i)

end Cert.KernelIdeal.Val

end
-- ==== Proof.LibRowGather.lean ====
/-
  A row gather read at an index: the operand's row is chosen by a start index read as a signed integer and clamped
  into the operand's rows; the remaining coordinates are copied. Stated for an operand of rank two and of rank three
  with start indices laid out as a column.
-/
import Idealize.ShloMosaic.Lib.ValueIdx
import Idealize.ShloMosaic.Lib.StableHlo.Predicate

noncomputable section

namespace Cert.RowGather

open Idealize.ShloMosaic Idealize.ShloMosaic.ValueIdx

/-- The node arrays have rows. -/
theorem pos50000 : 0 < 50000 := by decide

variable {α : Type} {N E w : Nat}

/-- The operand row that result row `t` reads: the start index of row `t`, signed, clamped into `[0, N - 1]`. -/
def rowOf (hN : 0 < N) (idx : IVec (⟨2, ![E, 1]⟩ : Shape) w) (t : Fin E) : Fin N :=
  ⟨min (idx (StableHlo.Predicate.ixP t)).toInt.toNat (N - 1), by omega⟩

/-- The rows of a rank-2 array chosen by `rowOf`. -/
def gatherRows {C : Nat} (hN : 0 < N) (x : (⟨2, ![N, C]⟩ : Shape).Idx → α) (idx : IVec (⟨2, ![E, 1]⟩ : Shape) w) :
    (⟨2, ![E, C]⟩ : Shape).Idx → α :=
  fun j => x (ix2 (rowOf hN idx (j 0)) (j 1))

/-- The offset coordinate on a kept operand axis, given its position among the kept axes and the offset axis in that
    position. -/
theorem offCoord_of {s si t : Shape} (d : GatherDims s si t) (j : t.Idx) (a : Fin s.rank) (k : Nat) (b : Fin t.rank)
    (ha : a ∈ d.sKept) (hidx : d.sKept.idxOf a = k) (hget : d.offsetDims[k]? = some b) :
    d.offCoord j a = (j b).val := by
  subst hidx
  obtain ⟨h, e⟩ := List.getElem?_eq_some_iff.1 hget
  unfold GatherDims.offCoord
  rw [dif_pos ha]
  exact congrArg (fun c => (j c).val) e

/-- The coordinate a result index gives a start-indices axis, given the axis's position among the start indices' kept
    axes and the batch axis in that position. -/
theorem siCoord_val_of {s si t : Shape} (d : GatherDims s si t) (j : t.Idx) (b : Fin si.rank) (hb : b ∈ d.siKept)
    (k : Nat) (c : Fin t.rank) (hidx : d.siKept.idxOf b = k) (hget : d.batchDims[k]? = some c) :
    (d.siCoord j b hb).val = (j c).val := by
  subst hidx
  obtain ⟨h, e⟩ := List.getElem?_eq_some_iff.1 hget
  unfold GatherDims.siCoord
  simp only [Fin.val_cast]
  exact congrArg (fun c => (j c).val) e

/-- A gather of whole rows of a rank-2 operand is `gatherRows`. -/
theorem gather_rows2 {C : Nat} (hN : 0 < N)
    (d : GatherDims (⟨2, ![N, C]⟩ : Shape) (⟨2, ![E, 1]⟩ : Shape) (⟨2, ![E, C]⟩ : Shape))
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec (⟨2, ![E, 1]⟩ : Shape) w) :
    Host.gather d x idx = gatherRows hN x idx := by
  funext j
  unfold Host.gather gatherRows
  refine congrArg x ?_
  funext a
  apply Fin.ext
  have hb : ∀ a : Fin 2, a ∉ d.operandBatchingDims := fun a => by rw [hob]; exact List.not_mem_nil
  have hk : d.sKept = [1] := by
    show (List.finRange 2).filter (· ∉ d.collapsedSliceDims ++ d.operandBatchingDims) = [1]
    rw [hcoll, hob]; rfl
  have hbd : d.batchDims = [0] := by
    show (List.finRange 2).filter (· ∉ d.offsetDims) = [0]
    rw [hoff]; rfl
  have hsk : d.siKept = [0] := by
    show (List.finRange 2).filter (·.val ≠ d.indexVectorDim) = [0]
    rw [hivd]; rfl
  match a with
  | ⟨0, _⟩ =>
    have h0k : (0 : Fin 2) ∉ d.sKept := by rw [hk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : d.siIdx j ⟨d.startIndexMap.idxOf 0, List.idxOf_lt_length_iff.2 hm⟩ = StableHlo.Predicate.ixP (j 0) := by
      funext b
      apply Fin.ext
      match b with
      | ⟨0, _⟩ =>
        unfold GatherDims.siIdx
        rw [dif_neg (by rw [hivd]; simp)]
        exact siCoord_val_of d j 0 _ 0 0 (by rw [hsk]; rfl) (by rw [hbd]; rfl)
      | ⟨1, _⟩ =>
        unfold GatherDims.siIdx
        rw [dif_pos (by rw [hivd])]
        show List.idxOf (0 : Fin 2) d.startIndexMap = 0
        rw [hsim]; rfl
    show d.start j idx 0 + d.batchCoord j 0 + d.offCoord j 0 = min (idx (StableHlo.Predicate.ixP (j 0))).toInt.toNat (N - 1)
    rw [d.batchCoord_eq_zero j 0 (hb 0), d.offCoord_eq_zero j 0 h0k]
    simp only [Nat.add_zero]
    unfold GatherDims.start
    rw [dif_pos hm, hsi]
    show min _ (N - d.sliceSizes 0) = _
    rw [hsl]
    rfl
  | ⟨1, _⟩ =>
    have h1k : (1 : Fin 2) ∈ d.sKept := by rw [hk]; exact List.mem_singleton.mpr rfl
    have hm : (1 : Fin 2) ∉ d.startIndexMap := by rw [hsim]; simp
    show d.start j idx 1 + d.batchCoord j 1 + d.offCoord j 1 = (j 1).val
    rw [d.batchCoord_eq_zero j 1 (hb 1), offCoord_of d j 1 0 1 h1k (by rw [hk]; rfl) (by rw [hoff]; rfl)]
    unfold GatherDims.start
    rw [dif_neg hm]
    omega

/-- A gather of whole rows of a rank-3 operand reads the chosen row and copies the two inner coordinates. -/
theorem gather_rows3 {A B : Nat} (hN : 0 < N)
    (d : GatherDims (⟨3, ![N, A, B]⟩ : Shape) (⟨2, ![E, 1]⟩ : Shape) (⟨3, ![E, A, B]⟩ : Shape))
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec (⟨2, ![E, 1]⟩ : Shape) w)
    (j : (⟨3, ![E, A, B]⟩ : Shape).Idx) :
    Host.gather d x idx j = x (ix3 (rowOf hN idx (j 0)) (j 1) (j 2)) := by
  unfold Host.gather
  refine congrArg x ?_
  funext a
  apply Fin.ext
  have hb : ∀ a : Fin 3, a ∉ d.operandBatchingDims := fun a => by rw [hob]; exact List.not_mem_nil
  have hk : d.sKept = [1, 2] := by
    show (List.finRange 3).filter (· ∉ d.collapsedSliceDims ++ d.operandBatchingDims) = [1, 2]
    rw [hcoll, hob]; rfl
  have hbd : d.batchDims = [0] := by
    show (List.finRange 3).filter (· ∉ d.offsetDims) = [0]
    rw [hoff]; rfl
  have hsk : d.siKept = [0] := by
    show (List.finRange 2).filter (·.val ≠ d.indexVectorDim) = [0]
    rw [hivd]; rfl
  match a with
  | ⟨0, _⟩ =>
    have h0k : (0 : Fin 3) ∉ d.sKept := by rw [hk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    have hsi : d.siIdx j ⟨d.startIndexMap.idxOf 0, List.idxOf_lt_length_iff.2 hm⟩ = StableHlo.Predicate.ixP (j 0) := by
      funext b
      apply Fin.ext
      match b with
      | ⟨0, _⟩ =>
        unfold GatherDims.siIdx
        rw [dif_neg (by rw [hivd]; simp)]
        exact siCoord_val_of d j 0 _ 0 0 (by rw [hsk]; rfl) (by rw [hbd]; rfl)
      | ⟨1, _⟩ =>
        unfold GatherDims.siIdx
        rw [dif_pos (by rw [hivd])]
        show List.idxOf (0 : Fin 3) d.startIndexMap = 0
        rw [hsim]; rfl
    show d.start j idx 0 + d.batchCoord j 0 + d.offCoord j 0 = min (idx (StableHlo.Predicate.ixP (j 0))).toInt.toNat (N - 1)
    rw [d.batchCoord_eq_zero j 0 (hb 0), d.offCoord_eq_zero j 0 h0k]
    simp only [Nat.add_zero]
    unfold GatherDims.start
    rw [dif_pos hm, hsi]
    show min _ (N - d.sliceSizes 0) = _
    rw [hsl]
    rfl
  | ⟨1, _⟩ =>
    have h1k : (1 : Fin 3) ∈ d.sKept := by rw [hk]; simp
    have hm : (1 : Fin 3) ∉ d.startIndexMap := by rw [hsim]; simp
    show d.start j idx 1 + d.batchCoord j 1 + d.offCoord j 1 = (j 1).val
    rw [d.batchCoord_eq_zero j 1 (hb 1), offCoord_of d j 1 0 1 h1k (by rw [hk]; rfl) (by rw [hoff]; rfl)]
    unfold GatherDims.start
    rw [dif_neg hm]
    omega
  | ⟨2, _⟩ =>
    have h2k : (2 : Fin 3) ∈ d.sKept := by rw [hk]; simp
    have hm : (2 : Fin 3) ∉ d.startIndexMap := by rw [hsim]; simp
    show d.start j idx 2 + d.batchCoord j 2 + d.offCoord j 2 = (j 2).val
    rw [d.batchCoord_eq_zero j 2 (hb 2), offCoord_of d j 2 1 2 h2k (by rw [hk]; rfl) (by rw [hoff]; rfl)]
    unfold GatherDims.start
    rw [dif_neg hm]
    omega

end Cert.RowGather

end
-- ==== Proof.SpecLaws.lean ====
/-
  Laws of the per-edge specification on the extended reals:
  dividing a product by the scale constant is multiplying one factor's quotient; a product with the 0/1 selector that
  marks k / 8 = a is the sum over the eight entries of group a; a product with the 0/1 matrix that marks j / 12 = a
  copies entry a = j / 12. None needs finiteness: 0 and 1 are absorbing and neutral for every extended real, and
  multiplication is associative.
-/
import proofs.«109308_j80942953660859_1_alg».proof.Proof.Spec

noncomputable section

namespace Cert.Spec

open Idealize.ShloMosaic Idealize.ShloMosaic.ValueIdx

/-- The scale constant is the value of a nonzero real. -/
theorem cS_real : ∃ r : ℝ, r ≠ 0 ∧ cS = (r : EReal) := by
  -- sign 0, exponent field 128, fraction field 3474675: the value (2 ^ 23 + 3474675) * 2 ^ (128 - 127 - 23)
  refine ⟨11863283 * (2 : ℝ) ^ (-22 : Int), by positivity, ?_⟩
  simp [cS, Ideal.ofBits, Ideal.ieee, -EReal.coe_mul]

/-- Dividing a product by the scale constant: the quotient can be taken on the second factor. -/
theorem div_cS_assoc (x y : EReal) : Ideal.div (x * y) cS = x * Ideal.div y cS := by
  obtain ⟨r, hr, hc⟩ := cS_real
  rw [hc, Ideal.div_coe hr, Ideal.div_coe hr, mul_assoc]

/-- The value of the word for one, and of the zero word. -/
theorem ofBits_one : Ideal.ofBits .f32 0x3F800000#32 = 1 := by
  simp [Ideal.ofBits, Ideal.ieee, -EReal.coe_mul]; norm_num
theorem ofBits_zero : Ideal.ofBits .f32 0x00000000#32 = 0 := by
  simp [Ideal.ofBits, Ideal.ieee]

/-- A channel number k < 64 is a pair (group a, position r) with k = r + 8 * a. -/
def specLaws_groupPos : Fin 8 × Fin 8 ≃ Fin 64 := finProdFinEquiv

theorem specLaws_groupPos_val (a r : Fin 8) : (specLaws_groupPos (a, r)).val = r.val + 8 * a.val := rfl

/-- Summing the entries whose group is a, over all 64 channels, is summing the eight entries of group a. -/
theorem specLaws_sum_group (f : Fin 64 → EReal) (a : Fin 8) :
    (∑ k : Fin 64, if k.val / 8 = a.val then f k else 0) = ∑ r : Fin 8, f ⟨8 * a.val + r.val, by omega⟩ := by
  rw [← specLaws_groupPos.sum_comp, Fintype.sum_prod_type]
  have h3 : ∀ a' : Fin 8,
      (∑ r : Fin 8, if (specLaws_groupPos (a', r)).val / 8 = a.val then f (specLaws_groupPos (a', r)) else 0)
        = if a' = a then ∑ r : Fin 8, f ⟨8 * a.val + r.val, by omega⟩ else 0 := by
    intro a'
    by_cases h : a' = a
    · subst h
      rw [if_pos rfl]
      refine Finset.sum_congr rfl fun r _ => ?_
      have hk : (specLaws_groupPos (a', r)).val / 8 = a'.val := by rw [specLaws_groupPos_val]; omega
      rw [if_pos hk]
      congr 1
      exact Fin.ext ((specLaws_groupPos_val a' r).trans (Nat.add_comm _ _))
    · rw [if_neg h]
      refine Finset.sum_eq_zero fun r _ => ?_
      have hk : ¬ (specLaws_groupPos (a', r)).val / 8 = a.val := by
        rw [specLaws_groupPos_val]; intro h'; apply h; apply Fin.ext; omega
      rw [if_neg hk]
  rw [Finset.sum_congr rfl fun a' _ => h3 a', Finset.sum_ite_eq' Finset.univ a, if_pos (Finset.mem_univ a)]

variable {M : Nat}

/-- A product with the group selector is the sum over the group's eight entries. -/
theorem mm_sel (x : Arr M 64) (bd : Arr 64 8)
    (hbd : ∀ (k : Fin 64) (a : Fin 8), bd (ix2 k a) = if k.val / 8 = a.val then 1 else 0)
    (t : Fin M) (a : Fin 8) :
    mm x bd (ix2 t a) = ∑ r : Fin 8, x (ix2 t ⟨8 * a.val + r.val, by omega⟩) := by
  have h1 : mm x bd (ix2 t a) = ∑ k : Fin 64, (if k.val / 8 = a.val then x (ix2 t k) else 0) := by
    show ∑ k : Fin 64, x (ix2 t k) * bd (ix2 k a) = _
    refine Finset.sum_congr rfl fun k _ => ?_
    rw [hbd]
    by_cases h : k.val / 8 = a.val
    · rw [if_pos h, if_pos h, mul_one]
    · rw [if_neg h, if_neg h, mul_zero]
  rw [h1]
  exact specLaws_sum_group (fun k => x (ix2 t k)) a

/-- A product with the spreading matrix copies the entry of the column's group. -/
theorem mm_rep (s : Arr M 8) (rep : Arr 8 96)
    (hrep : ∀ (a : Fin 8) (j : Fin 96), rep (ix2 a j) = if j.val / 12 = a.val then 1 else 0)
    (t : Fin M) (j : Fin 96) :
    mm s rep (ix2 t j) = s (ix2 t ⟨j.val / 12, by omega⟩) := by
  show ∑ k : Fin 8, s (ix2 t k) * rep (ix2 k j) = _
  have h1 : ∀ k : Fin 8, s (ix2 t k) * rep (ix2 k j)
      = if k = (⟨j.val / 12, by omega⟩ : Fin 8) then s (ix2 t k) else 0 := by
    intro k
    rw [hrep]
    by_cases h : j.val / 12 = k.val
    · rw [if_pos h, mul_one, if_pos (Fin.ext h.symm)]
    · rw [if_neg h, mul_zero, if_neg (fun h' => h (by rw [h']))]
  rw [Finset.sum_congr rfl fun k _ => h1 k, Finset.sum_ite_eq' Finset.univ _, if_pos (Finset.mem_univ _)]

end Cert.Spec

end
-- ==== Proof.LitTables.lean ====
/-
  The two constant 0/1 matrices of the edge kernel, read at an index: the head selector has a one at (k, a) exactly
  when channel k belongs to head a (k / 8 = a), the spreading matrix a one at (a, j) exactly when output channel j
  belongs to head a (j / 12 = a). Both are literal tables of words, 1.0 or 0.0, laid out row-major.
-/
import proofs.«109308_j80942953660859_1_alg».proof.KernelIdeal
import proofs.«109308_j80942953660859_1_alg».proof.Proof.Spec
import proofs.«109308_j80942953660859_1_alg».proof.Proof.SpecLaws

noncomputable section

namespace Cert.KernelIdeal.Val

open Cert.KernelIdeal Cert.Spec
open Idealize.ShloMosaic Idealize.ShloMosaic.ValueIdx

/-- The head selector as the program spells it. -/
def bdLit : Arr 64 8 := fun i => FloatOps.ofBits (F := Ideal) .f32 (lit0 (S64x8.rowMajor i))

/-- The spreading matrix as the program spells it. -/
def repLit : Arr 8 96 := fun i => FloatOps.ofBits (F := Ideal) .f32 (lit1 (S8x96.rowMajor i))

/-- The 64x8 table, entry by entry: position n = 8k + a holds the word of one exactly when k / 8 = a. -/
theorem lit0_val : ∀ n : Fin 512,
    lit0 n = if n.val / 8 / 8 = n.val % 8 then 0x3F800000#32 else 0x00000000#32 := by
  decide +kernel

/-- The 8x96 table, entry by entry: position n = 96a + j holds the word of one exactly when j / 12 = a. -/
theorem lit1_val : ∀ n : Fin 768,
    lit1 n = if n.val % 96 / 12 = n.val / 96 then 0x3F800000#32 else 0x00000000#32 := by
  decide +kernel

/-- The value of the 64x8 table at the row-major position of (k, a). -/
theorem lit0_at (n : Fin 512) (k : Fin 64) (a : Fin 8) (hn : n.val = k.val * 8 + a.val) :
    Ideal.ofBits .f32 (lit0 n) = if k.val / 8 = a.val then 1 else 0 := by
  have hk := k.isLt
  have ha := a.isLt
  have h1 : n.val / 8 / 8 = k.val / 8 := by omega
  have h2 : n.val % 8 = a.val := by omega
  rw [lit0_val n, h1, h2]
  split_ifs
  · exact ofBits_one
  · exact ofBits_zero

/-- The value of the 8x96 table at the row-major position of (a, j). -/
theorem lit1_at (n : Fin 768) (a : Fin 8) (j : Fin 96) (hn : n.val = a.val * 96 + j.val) :
    Ideal.ofBits .f32 (lit1 n) = if j.val / 12 = a.val then 1 else 0 := by
  have hj := j.isLt
  have ha := a.isLt
  have h1 : n.val % 96 / 12 = j.val / 12 := by omega
  have h2 : n.val / 96 = a.val := by omega
  rw [lit1_val n, h1, h2]
  split_ifs
  · exact ofBits_one
  · exact ofBits_zero

theorem bd_entry (k : Fin 64) (a : Fin 8) : bdLit (ix2 k a) = if k.val / 8 = a.val then 1 else 0 := by
  show Ideal.ofBits .f32 (lit0 (S64x8.rowMajor (ix2 k a))) = _
  exact lit0_at _ k a (by rw [Shape.rowMajor_val_two]; rfl)

theorem rep_entry (a : Fin 8) (j : Fin 96) : repLit (ix2 a j) = if j.val / 12 = a.val then 1 else 0 := by
  show Ideal.ofBits .f32 (lit1 (S8x96.rowMajor (ix2 a j))) = _
  exact lit1_at _ a j (by rw [Shape.rowMajor_val_two]; rfl)

end Cert.KernelIdeal.Val

end
-- ==== Proof.KernelValue.lean ====
/-
  The kernel program's two results as the specification's functions of the arguments.
  The gathered keys and values are rows of the two node projections (a matrix product, and a matrix product plus a bias
  row) chosen by the wrapped and clamped source indices; the query row is the mean vector times the query weights; the
  two biases are one-row arrays. So the edge output is `eoArr` of these, and the node output is the shared tail of
  `svArr` and `sArr` of these with the two literal 0/1 matrices.
-/
import proofs.«109308_j80942953660859_1_alg».proof.Proof.KHost
import proofs.«109308_j80942953660859_1_alg».proof.Proof.Region0
import proofs.«109308_j80942953660859_1_alg».proof.Proof.Region1
import proofs.«109308_j80942953660859_1_alg».proof.Proof.LibRowGather
import proofs.«109308_j80942953660859_1_alg».proof.Proof.LitTables
import Idealize.ShloMosaic.Lib.ValueLayout

set_option maxRecDepth 16384

noncomputable section

namespace Cert.KernelIdeal.Val

open Cert.KernelIdeal Cert.KernelIdeal.Gen Cert.Spec Cert.RowGather
open Idealize.ShloMosaic Idealize.ShloMosaic.TcCoe Idealize.ShloMosaic.ValueIdx Idealize.SL.Sem

/-- A vector reshaped to one row is the vector viewed as a one-row array. -/
theorem cast_row {C : Nat} (v : (⟨1, ![C]⟩ : Shape).Idx → EReal) (h : (⟨1, ![C]⟩ : Shape).ShapeCasts ⟨2, ![1, C]⟩) :
    shapeCast ⟨2, ![1, C]⟩ v h = rowOfVec v := by
  funext j
  obtain ⟨u, i, rfl⟩ : ∃ (u : Fin 1) (i : Fin C), j = ix2 u i := ⟨j 0, j 1, eq_ix2 j⟩
  exact shapeCast_a_1a_apply v h u i

/-- The product of the one-row mean with the query weights is the query row. -/
theorem dot_row (mean : (⟨1, ![96]⟩ : Shape).Idx → EReal) (q : Arr 96 64)
    (h : (⟨1, ![96]⟩ : Shape).ShapeCasts ⟨2, ![1, 96]⟩) :
    Host.dotGeneral (F := Ideal) (φ₁ := .f32) (φ₂ := .f32) dot_S1x96_S96x64_S1x64_1_0_0_1_n_n none
      (shapeCast ⟨2, ![1, 96]⟩ mean h) q = qRow mean q := by
  funext j
  simp only [Host.dotGeneral]
  refine (Cert.PlainDot.dotGeneral_apply (M := 1) (K := 96) (N := 64) none _ (shapeCast ⟨2, ![1, 96]⟩ mean h) q j).trans ?_
  unfold qRow
  refine Finset.sum_congr rfl fun k _ => ?_
  rw [shapeCast_a_1a_apply mean h (j 0) k]

variable (m : (ℓ : Loc nD τ sig) → Buf (Elt Ideal) ℓ) (ρ : Dev nD → PrngReg)

/-- The gathered keys, the gathered values and the query row, of the arguments. -/
abbrev KSk (c : Dev nD) : Arr 800000 64 :=
  gatherRows pos50000 (mm (M := 50000) (m ((c.tc : Thread nD τ).loc main_arg0)) (m ((c.tc : Thread nD τ).loc main_arg4)))
    (idxK (m ((c.tc : Thread nD τ).loc main_arg2)))
abbrev VSk (c : Dev nD) : Arr 800000 96 :=
  gatherRows pos50000 (Cert.PlainDot.affine (M := 50000) (m ((c.tc : Thread nD τ).loc main_arg0))
      (m ((c.tc : Thread nD τ).loc main_arg6)) (rowOfVec (m ((c.tc : Thread nD τ).loc main_arg7))))
    (idxK (m ((c.tc : Thread nD τ).loc main_arg2)))
abbrev QVk (c : Dev nD) : Arr 1 64 :=
  qRow (meanK (m ((c.tc : Thread nD τ).loc main_arg0))) (m ((c.tc : Thread nD τ).loc main_arg5))

/-- The gathered keys at the second region's entry. -/
theorem ks_eq (c : Dev nD) : (V3 m ρ c main_v13 : Arr 800000 64) = KSk m c := by
  rw [V3_v13, final0_4 (V1 m ρ) c, V1_arg0, V1_arg4]
  exact gather_rows2 pos50000 _ rfl rfl rfl rfl rfl _ _

/-- The gathered values at the second region's entry. -/
theorem vs_eq (c : Dev nD) : (V3 m ρ c main_v20 : Arr 800000 96) = VSk m c := by
  rw [V3_v20, final0_5 (V1 m ρ) c, V1_arg0, V1_arg6, V1_v5, cast_row]
  exact gather_rows2 pos50000 _ rfl rfl rfl rfl rfl _ _

/-- The query row at the second region's entry. -/
theorem qv_eq (c : Dev nD) : (V3 m ρ c main_v4 : Arr 1 64) = QVk m c := by
  rw [V3_v4]
  exact dot_row _ _ _

/-- The edge output. -/
theorem eout_k (c : Dev nD) :
    W5 m ρ c (Proc.devRef .tc main_v23_0)
      = eoArr (M := 800000) (m ((c.tc : Thread nD τ).loc main_arg1)) (KSk m c) (QVk m c)
          (m ((c.tc : Thread nD τ).loc main_arg8)) (rowOfVec (m ((c.tc : Thread nD τ).loc main_arg9)))
          (m ((c.tc : Thread nD τ).loc main_arg10)) (rowOfVec (m ((c.tc : Thread nD τ).loc main_arg11))) := by
  rw [W5_v23_0, final1_10 (V3 m ρ) c, ks_eq, qv_eq, V3_arg1, V3_arg8, V3_arg10, V3_v21, V3_v22, cast_row, cast_row]

/-- The node output: the shared tail of the weighted values and the head weights. -/
theorem hout_k (c : Dev nD) :
    W5 m ρ c (Proc.devRef .tc main_v36)
      = tailK
          (svArr (M := 800000) (m ((c.tc : Thread nD τ).loc main_arg1)) (KSk m c) (VSk m c) (QVk m c)
            (m ((c.tc : Thread nD τ).loc main_arg8)) (rowOfVec (m ((c.tc : Thread nD τ).loc main_arg9))) bdLit repLit)
          (sArr (M := 800000) (m ((c.tc : Thread nD τ).loc main_arg1)) (KSk m c) (QVk m c)
            (m ((c.tc : Thread nD τ).loc main_arg8)) (rowOfVec (m ((c.tc : Thread nD τ).loc main_arg9))) bdLit)
          (m ((c.tc : Thread nD τ).loc main_arg3)) := by
  rw [W5_v36, final1_11 (V3 m ρ) c, final1_12 (V3 m ρ) c, ks_eq, vs_eq, qv_eq, V3_arg1, V3_arg8, V3_v21, cast_row,
    V3_cst, V3_cst_0]
  rfl

end Cert.KernelIdeal.Val

end
-- ==== Proof.RefStages.lean ====
/-
  The reference's edge stages as the specification's functions. With the key projection K = h * p and the value
  projection Vh = h * Vw + Vb of all nodes, the rows gathered by the wrapped and clamped source indices, and the query
  row q0 = mean * q (every row of the reference's query projection is this row, whatever the destination index, because
  the projected array repeats the mean in every row), the reference's score is (K (src) * q0) / c * pe, which equals
  K (src) * (q0 / c) * pe. Its sum over the eight channels of a head is the product with the head selector, its
  exponentiated clipped head sum spread over the head's twelve channels is the product with the spreading matrix.
-/
import proofs.«109308_j80942953660859_1_alg».proof.Proof.Gen.ReferenceIdeal.Read
import proofs.«109308_j80942953660859_1_alg».proof.Proof.Spec
import proofs.«109308_j80942953660859_1_alg».proof.Proof.SpecLaws
import proofs.«109308_j80942953660859_1_alg».proof.Proof.LibRowGather

noncomputable section

namespace Cert.ReferenceIdeal.RefVal

open Cert.ReferenceIdeal Cert.ReferenceIdeal.Gen Cert.ReferenceIdeal.Read Cert.Spec Cert.RowGather
open Idealize.ShloMosaic Idealize.ShloMosaic.ValueIdx

/-- The start indices of a gather: a negative index wrapped by the number of nodes, laid out as a column. -/
def idxT (x : (⟨S800000, .i32⟩ : BufTy).Contents (Elt Ideal)) : (⟨S800000x1, .i32⟩ : BufTy).Contents (Elt Ideal) :=
  broadcastInDim S800000x1 ![0] bcast_S800000_S800000x1_0 (select (cmpi .slt x (broadcastInDim S800000 ![] bcast_S_S800000 (constantI S_ 32 0#32))) (addi x (broadcastInDim S800000 ![] bcast_S_S800000 (constantI S_ 32 50000#32))) x)

/-- The mean of the node features over the nodes. -/
def meanT (x0 : (⟨S50000x96, .f32⟩ : BufTy).Contents (Elt Ideal)) : (⟨S96, .f32⟩ : BufTy).Contents (Elt Ideal) :=
  Host.divf (F := Ideal) (Host.reduceAdd x0 (constant S_ .f32 0x00000000#32) reducesTo_S50000x96_S96_d0 h_S_) (broadcastInDim S96 ![] bcast_S_S96 (constant S_ .f32 0x47435000#32))

variable (x0 : (⟨S50000x96, .f32⟩ : BufTy).Contents (Elt Ideal)) (x1 : (⟨S800000x96, .f32⟩ : BufTy).Contents (Elt Ideal))
  (x2 x3 : (⟨S800000, .i32⟩ : BufTy).Contents (Elt Ideal)) (x4 x5 : (⟨S96x64, .f32⟩ : BufTy).Contents (Elt Ideal))
  (x6 : (⟨S96x96, .f32⟩ : BufTy).Contents (Elt Ideal)) (x7 : (⟨S96, .f32⟩ : BufTy).Contents (Elt Ideal))
  (x8 : (⟨S96x64, .f32⟩ : BufTy).Contents (Elt Ideal)) (x9 : (⟨S64, .f32⟩ : BufTy).Contents (Elt Ideal))
  (x10 : (⟨S64x96, .f32⟩ : BufTy).Contents (Elt Ideal)) (x11 : (⟨S96, .f32⟩ : BufTy).Contents (Elt Ideal))

/-- The gathered keys, the gathered values and the query row. -/
abbrev KS : Arr 800000 64 := gatherRows pos50000 (mm (M := 50000) x0 x4) (idxT x2)
abbrev VS : Arr 800000 96 := gatherRows pos50000 (Cert.PlainDot.affine (M := 50000) x0 x6 (rowOfVec x7)) (idxT x2)
abbrev QV : Arr 1 64 := qRow (meanT x0) x5

theorem idxT_v23 : val_main_v23 (F := Ideal) x2 = idxT x2 := rfl
theorem idxT_v30 : val_main_v30 (F := Ideal) x3 = idxT x3 := rfl
theorem idxT_v45 : val_main_v45 (F := Ideal) x2 = idxT x2 := rfl
theorem meanT_v2 : val_main_v2 (F := Ideal) x0 = meanT x0 := rfl

/-- An index of rank one, two or three is determined by the values of its coordinates. -/
theorem ix1_of {n0 : Nat} (f : (⟨1, ![n0]⟩ : Shape).Idx) (a : Fin n0) (h0 : (f 0).val = a.val) : f = ix1 a :=
  funext fun d => Fin.ext (by match d with | ⟨0, _⟩ => exact h0)
theorem ix2_of {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)
theorem ix3_of {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by match d with | ⟨0, _⟩ => exact h0 | ⟨1, _⟩ => exact h1 | ⟨2, _⟩ => exact h2)

/-- Row-major position arithmetic of the reshapes between (n, 64) and (n, 8, 8), and between (n, 96) and (n, 8, 12). -/
theorem pos88 (n a r : Nat) (ha : a < 8) (hr : r < 8) :
    ((n * 8 + a) * 8 + r) / 64 = n ∧ ((n * 8 + a) * 8 + r) % 64 = 8 * a + r := by omega
theorem pos812 (n a d : Nat) (ha : a < 8) (hd : d < 12) :
    ((n * 8 + a) * 12 + d) / 96 = n ∧ ((n * 8 + a) * 12 + d) % 96 = 12 * a + d := by omega

/-- The key projection read at (node, head, channel) is the matrix product at (node, 8 * head + channel). -/
theorem k3_ref (n : Fin 50000) (a r : Fin 8) :
    val_main_v5 (F := Ideal) x0 x4 (ix3 n a r) = mm (M := 50000) x0 x4 (ix2 n ⟨8 * a.val + r.val, by omega⟩) := by
  have e5 : idx_main_v5 (ix3 n a r) = ix2 n ⟨8 * a.val + r.val, by omega⟩ :=
    ix2_of _ _ _ (pos88 n.val a.val r.val a.isLt r.isLt).1 (pos88 n.val a.val r.val a.isLt r.isLt).2
  rw [val_main_v5_apply, e5, val_main_v4_apply]
  show _ = ∑ k : Fin 96, x0 (ix2 n k) * x4 (ix2 k (⟨8 * a.val + r.val, by omega⟩ : Fin 64))
  exact Finset.sum_congr rfl fun k _ =>
    congrArg₂ (· * ·) (congrArg x0 (ix2_of _ _ _ rfl rfl)) (congrArg x4 (ix2_of _ _ _ rfl rfl))

/-- The query projection read at (node, head, channel) is the query row at 8 * head + channel, whatever the node. -/
theorem q3_ref (n : Fin 50000) (a r : Fin 8) :
    val_main_v7 (F := Ideal) x0 x5 (ix3 n a r) = QV x0 x5 (ix2 (0 : Fin 1) ⟨8 * a.val + r.val, by omega⟩) := by
  have e7 : idx_main_v7 (ix3 n a r) = ix2 n ⟨8 * a.val + r.val, by omega⟩ :=
    ix2_of _ _ _ (pos88 n.val a.val r.val a.isLt r.isLt).1 (pos88 n.val a.val r.val a.isLt r.isLt).2
  rw [val_main_v7_apply, e7, val_main_v6_apply]
  show _ = ∑ k : Fin 96, meanT x0 (ix1 k) * x5 (ix2 k (⟨8 * a.val + r.val, by omega⟩ : Fin 64))
  refine Finset.sum_congr rfl fun k _ => ?_
  rw [val_main_v3_apply, meanT_v2]
  exact congrArg₂ (· * ·) (congrArg (meanT x0) (ix1_of _ _ rfl)) (congrArg x5 (ix2_of _ _ _ rfl rfl))

/-- The edge projection read at (edge, head, channel). -/
theorem pe3_ref (t : Fin 800000) (a r : Fin 8) :
    val_main_v17 (F := Ideal) x1 x8 x9 (ix3 t a r)
      = Cert.PlainDot.affine (M := 800000) x1 x8 (rowOfVec x9) (ix2 t ⟨8 * a.val + r.val, by omega⟩) := by
  have e17 : idx_main_v17 (ix3 t a r) = ix2 t ⟨8 * a.val + r.val, by omega⟩ :=
    ix2_of _ _ _ (pos88 t.val a.val r.val a.isLt r.isLt).1 (pos88 t.val a.val r.val a.isLt r.isLt).2
  rw [val_main_v17_apply, e17, val_main_v16_apply, val_main_v13_apply, val_main_v15_apply, val_main_v14_apply,
    Ideal.addf_def]
  show _ = (∑ k : Fin 96, x1 (ix2 t k) * x8 (ix2 k (⟨8 * a.val + r.val, by omega⟩ : Fin 64)))
    + x9 (ix1 (⟨8 * a.val + r.val, by omega⟩ : Fin 64))
  refine congrArg₂ (· + ·) (Finset.sum_congr rfl fun k _ =>
    congrArg₂ (· * ·) (congrArg x1 (ix2_of _ _ _ rfl rfl)) (congrArg x8 (ix2_of _ _ _ rfl rfl))) ?_
  exact congrArg x9 (ix1_of _ _ rfl)

/-- The value projection read at (node, head, channel of the head). -/
theorem v3_ref (n : Fin 50000) (a : Fin 8) (d : Fin 12) :
    val_main_v12 (F := Ideal) x0 x6 x7 (ix3 n a d)
      = Cert.PlainDot.affine (M := 50000) x0 x6 (rowOfVec x7) (ix2 n ⟨12 * a.val + d.val, by omega⟩) := by
  have e12 : idx_main_v12 (ix3 n a d) = ix2 n ⟨12 * a.val + d.val, by omega⟩ :=
    ix2_of _ _ _ (pos812 n.val a.val d.val a.isLt d.isLt).1 (pos812 n.val a.val d.val a.isLt d.isLt).2
  rw [val_main_v12_apply, e12, val_main_v11_apply, val_main_v8_apply, val_main_v10_apply, val_main_v9_apply,
    Ideal.addf_def]
  show _ = (∑ k : Fin 96, x0 (ix2 n k) * x6 (ix2 k (⟨12 * a.val + d.val, by omega⟩ : Fin 96)))
    + x7 (ix1 (⟨12 * a.val + d.val, by omega⟩ : Fin 96))
  refine congrArg₂ (· + ·) (Finset.sum_congr rfl fun k _ =>
    congrArg₂ (· * ·) (congrArg x0 (ix2_of _ _ _ rfl rfl)) (congrArg x6 (ix2_of _ _ _ rfl rfl))) ?_
  exact congrArg x7 (ix1_of _ _ rfl)

/-- The gathered keys at (edge, head, channel). -/
theorem kgather_ref (t : Fin 800000) (a r : Fin 8) :
    val_main_v24 (F := Ideal) x0 x2 x4 (ix3 t a r) = KS x0 x2 x4 (ix2 t ⟨8 * a.val + r.val, by omega⟩) := by
  unfold val_main_v24
  refine Eq.trans (gather_rows3 (N := 50000) (E := 800000) (A := 8) (B := 8) pos50000
    gather_S50000x8x8_S800000x1_S800000x8x8_12_0_n_n_0_1_188 rfl rfl rfl rfl rfl _ _ _) ?_
  exact k3_ref x0 x4 (rowOf pos50000 (idxT x2) t) a r

/-- The gathered queries at (edge, head, channel): the query row, whatever the destination index. -/
theorem qgather_ref (t : Fin 800000) (a r : Fin 8) :
    val_main_v31 (F := Ideal) x0 x3 x5 (ix3 t a r) = QV x0 x5 (ix2 (0 : Fin 1) ⟨8 * a.val + r.val, by omega⟩) := by
  unfold val_main_v31
  refine Eq.trans (gather_rows3 (N := 50000) (E := 800000) (A := 8) (B := 8) pos50000
    gather_S50000x8x8_S800000x1_S800000x8x8_12_0_n_n_0_1_188 rfl rfl rfl rfl rfl _ _ _) ?_
  exact q3_ref x0 x5 (rowOf pos50000 (idxT x3) t) a r

/-- The gathered values at (edge, head, channel of the head). -/
theorem vgather_ref (t : Fin 800000) (a : Fin 8) (d : Fin 12) :
    val_main_v46 (F := Ideal) x0 x2 x6 x7 (ix3 t a d)
      = VS x0 x2 x6 x7 (ix2 t ⟨12 * a.val + d.val, by omega⟩) := by
  unfold val_main_v46
  refine Eq.trans (gather_rows3 (N := 50000) (E := 800000) (A := 8) (B := 12) pos50000
    gather_S50000x8x12_S800000x1_S800000x8x12_12_0_n_n_0_1_1812 rfl rfl rfl rfl rfl _ _ _) ?_
  exact v3_ref x0 x6 x7 (rowOf pos50000 (idxT x2) t) a d

/-- The reference's score at (edge, head, channel) is the specification's score at (edge, 8 * head + channel):
    (K * Q) / c * pe = K * (Q / c) * pe. -/
theorem score_ref (t : Fin 800000) (a r : Fin 8) :
    val_main_v35 (F := Ideal) x0 x1 x2 x3 x4 x5 x8 x9 (ix3 t a r)
      = score (M := 800000) x1 (KS x0 x2 x4) (QV x0 x5) x8 (rowOfVec x9)
          (ix2 t ⟨8 * a.val + r.val, by omega⟩) := by
  rw [val_main_v35_apply, val_main_v34_apply, val_main_v32_apply, val_main_v33_apply, val_main_cst_4_apply,
    kgather_ref, qgather_ref, pe3_ref]
  simp only [Ideal.mulf_def, Ideal.hostDivf_def, Ideal.ofBits_def]
  show Ideal.div (_ * _) cS * _ = _
  rw [div_cS_assoc]
  rfl

/-- A product with the spreading matrix at column 12 * a + d copies entry a. -/
theorem mm_rep_at {M : Nat} (s : Arr M 8) (rep : Arr 8 96)
    (hrep : ∀ (a : Fin 8) (j : Fin 96), rep (ix2 a j) = if j.val / 12 = a.val then 1 else 0)
    (t : Fin M) (a : Fin 8) (d : Fin 12) :
    mm s rep (ix2 t ⟨12 * a.val + d.val, by omega⟩) = s (ix2 t a) := by
  rw [mm_rep s rep hrep t]
  exact congrArg s (ix2_of _ _ _ rfl (by show (12 * a.val + d.val) / 12 = a.val; omega))

/-- The reference's edge output. -/
theorem eout_eq :
    val_main_v64 (F := Ideal) x0 x1 x2 x3 x4 x5 x8 x9 x10 x11
      = eoArr (M := 800000) x1 (KS x0 x2 x4) (QV x0 x5) x8 (rowOfVec x9) x10 (rowOfVec x11) := by
  funext i
  obtain ⟨t, j, rfl⟩ : ∃ (t : Fin 800000) (j : Fin 96), i = ix2 t j := ⟨i 0, i 1, eq_ix2 i⟩
  rw [val_main_v64_apply, val_main_v61_apply, val_main_v63_apply, val_main_v62_apply, Ideal.addf_def]
  show _ = (∑ k : Fin 64, score (M := 800000) x1 (KS x0 x2 x4) (QV x0 x5) x8 (rowOfVec x9) (ix2 t k) * x10 (ix2 k j))
    + x11 (ix1 j)
  refine congrArg₂ (· + ·) (Finset.sum_congr rfl fun k _ => ?_) (congrArg x11 (ix1_of _ _ rfl))
  have e60 : idx_main_v60 (lidx_main_v61 (ix2 t j) k)
      = ix3 t (⟨k.val / 8, by omega⟩ : Fin 8) (⟨k.val % 8, by omega⟩ : Fin 8) :=
    ix3_of _ _ _ _ (by show (t.val * 64 + k.val) / 64 = t.val; omega)
      (by show (t.val * 64 + k.val) / 8 % 8 = k.val / 8; omega)
      (by show (t.val * 64 + k.val) % 8 = k.val % 8; omega)
  rw [val_main_v60_apply, e60, score_ref]
  exact congrArg₂ (· * ·)
    (congrArg _ (ix2_of _ _ _ rfl (by show 8 * (k.val / 8) + k.val % 8 = k.val; omega)))
    (congrArg x10 (ix2_of _ _ _ rfl rfl))

/-- The reference's head weights, at edge t and head a. -/
theorem s_eq (bd : Arr 64 8) (hbd : ∀ (k : Fin 64) (a : Fin 8), bd (ix2 k a) = if k.val / 8 = a.val then 1 else 0)
    (t : Fin 800000) (a : Fin 8) :
    val_main_v39 (F := Ideal) x0 x1 x2 x3 x4 x5 x8 x9 (ix3 t a (0 : Fin 1))
      = sArr (M := 800000) x1 (KS x0 x2 x4) (QV x0 x5) x8 (rowOfVec x9) bd (ix2 t a) := by
  have e36 : ∀ r : Fin 8, idx_main_v36 (idx_main_v37 (ix3 t a (0 : Fin 1))) r = ix3 t a r :=
    fun r => ix3_of _ _ _ _ rfl rfl rfl
  rw [val_main_v39_apply, val_main_v38_apply, val_main_call0_v4_apply, val_main_call0_v3_apply, val_main_cst_7_apply,
    val_main_call0_v2_apply, val_main_call0_v1_apply, val_main_call0_v0_apply, val_main_cst_6_apply,
    val_main_v37_apply, val_main_v36_apply, val_main_cst_5_apply]
  simp only [Ideal.hostUnary_exp_def, Ideal.minimumf_def, Ideal.maximumf_def, Ideal.ofBits_def, e36, score_ref]
  rw [ofBits_zero, zero_add]
  show _ = Ideal.exp (min cHi (max cLo
    (mm (score (M := 800000) x1 (KS x0 x2 x4) (QV x0 x5) x8 (rowOfVec x9)) bd (ix2 t a))))
  rw [mm_sel _ bd hbd t a]
  rfl

/-- The reference's weighted values, at edge t, head a and channel d of the head. -/
theorem sv_eq (bd : Arr 64 8) (hbd : ∀ (k : Fin 64) (a : Fin 8), bd (ix2 k a) = if k.val / 8 = a.val then 1 else 0)
    (rep : Arr 8 96) (hrep : ∀ (a : Fin 8) (j : Fin 96), rep (ix2 a j) = if j.val / 12 = a.val then 1 else 0)
    (t : Fin 800000) (a : Fin 8) (d : Fin 12) :
    val_main_v48 (F := Ideal) x0 x1 x2 x3 x4 x5 x6 x7 x8 x9 (ix3 t a d)
      = svArr (M := 800000) x1 (KS x0 x2 x4) (VS x0 x2 x6 x7) (QV x0 x5) x8 (rowOfVec x9) bd rep
          (ix2 t ⟨12 * a.val + d.val, by omega⟩) := by
  have e47 : idx_main_v47 (ix3 t a d) = ix3 t a (0 : Fin 1) := ix3_of _ _ _ _ rfl rfl rfl
  rw [val_main_v48_apply, val_main_v47_apply, e47, s_eq x0 x1 x2 x3 x4 x5 x8 x9 bd hbd t a, vgather_ref,
    Ideal.mulf_def]
  show _ = mm (sArr (M := 800000) x1 (KS x0 x2 x4) (QV x0 x5) x8 (rowOfVec x9) bd) rep
      (ix2 t ⟨12 * a.val + d.val, by omega⟩) * VS x0 x2 x6 x7 (ix2 t ⟨12 * a.val + d.val, by omega⟩)
  rw [mm_rep_at _ rep hrep t a d]

end Cert.ReferenceIdeal.RefVal

end
-- ==== Proof.lean ====
/-
  The certificate of the message-passing layer: the kernel program (two Pallas regions with gathers between them and a
  scatter-add tail after them) against its plain reference, equal on the extended reals.

  Both programs compute, per edge t with source node s(t): the score K (s(t), j) * q0 (j) / c * pe (t, j), where K is the
  key projection of the node features, pe the edge projection, c the scale word and q0 the query row. The reference
  gathers the query projection at the destination node, but every row of that projection is the same row q0 (it is the
  projection of the mean repeated in every row), so the gathered row does not depend on the destination; the kernel
  uses q0 directly. The reference divides the product K * q0 by c, the kernel divides q0 by c first: the same extended
  real, since dividing by a nonzero real is multiplying by its reciprocal and multiplication is associative. The
  reference sums the eight scores of a head, the kernel multiplies by a 0/1 selector matrix; the reference broadcasts a
  head's weight over its twelve channels, the kernel multiplies by a 0/1 spreading matrix: the same, since 0 absorbs
  and 1 is neutral for every extended real. The scatter-add tail and the edge output's final product are the same
  operations in both programs. No step needs the inputs finite.

  The three frames: the two kernel programs' frames and the reference's run are generated; `preserves` is trivial (the
  idealization rewrote nothing).
-/
import proofs.«109308_j80942953660859_1_alg».proof.Defs
import proofs.«109308_j80942953660859_1_alg».proof.Proof.Gen.Kernel
import proofs.«109308_j80942953660859_1_alg».proof.Proof.Gen.Kernel.Skeleton
import proofs.«109308_j80942953660859_1_alg».proof.Proof.Gen.Kernel.Launch
import proofs.«109308_j80942953660859_1_alg».proof.Proof.Gen.Kernel.Points
import proofs.«109308_j80942953660859_1_alg».proof.Proof.Gen.Kernel.Frame
import proofs.«109308_j80942953660859_1_alg».proof.Proof.Gen.KernelIdeal
import proofs.«109308_j80942953660859_1_alg».proof.Proof.Gen.KernelIdeal.Skeleton
import proofs.«109308_j80942953660859_1_alg».proof.Proof.Gen.KernelIdeal.Launch
import proofs.«109308_j80942953660859_1_alg».proof.Proof.Gen.KernelIdeal.Points
import proofs.«109308_j80942953660859_1_alg».proof.Proof.Gen.KernelIdeal.Frame
import proofs.«109308_j80942953660859_1_alg».proof.Proof.Gen.ReferenceIdeal
import proofs.«109308_j80942953660859_1_alg».proof.Proof.Gen.Pre_finite_inputs
import proofs.«109308_j80942953660859_1_alg».proof.Proof.Gen.ReferenceIdeal.Run
import proofs.«109308_j80942953660859_1_alg».proof.Proof.Gen.ReferenceIdeal.Read
import proofs.«109308_j80942953660859_1_alg».proof.Proof.KRun
import proofs.«109308_j80942953660859_1_alg».proof.Proof.KernelValue
import proofs.«109308_j80942953660859_1_alg».proof.Proof.RefStages
import Idealize.ShloMosaic.Adequacy
import Idealize.ShloMosaic.Init

set_option maxRecDepth 16384

noncomputable section

/-! ## The two programs' shared terms -/

namespace Cert.Bridge

open Idealize.ShloMosaic Idealize.ShloMosaic.TcCoe Idealize.ShloMosaic.ValueIdx Idealize.SL.Sem
open Cert.Spec Cert.RowGather Cert.ReferenceIdeal Cert.ReferenceIdeal.Read Cert.ReferenceIdeal.RefVal
open Cert.KernelIdeal.Val (tailK bdLit repLit bd_entry rep_entry idxK meanK)

/-- The wrapped start indices and the mean are one term in both programs. -/
theorem idx_eq (x : (⟨S800000, .i32⟩ : BufTy).Contents (Elt Ideal)) : idxK x = idxT x := rfl
theorem mean_eq (x : (⟨S50000x96, .f32⟩ : BufTy).Contents (Elt Ideal)) : meanK x = meanT x := rfl

variable (x0 : (⟨S50000x96, .f32⟩ : BufTy).Contents (Elt Ideal)) (x1 : (⟨S800000x96, .f32⟩ : BufTy).Contents (Elt Ideal))
  (x2 x3 : (⟨S800000, .i32⟩ : BufTy).Contents (Elt Ideal)) (x4 x5 : (⟨S96x64, .f32⟩ : BufTy).Contents (Elt Ideal))
  (x6 : (⟨S96x96, .f32⟩ : BufTy).Contents (Elt Ideal)) (x7 : (⟨S96, .f32⟩ : BufTy).Contents (Elt Ideal))
  (x8 : (⟨S96x64, .f32⟩ : BufTy).Contents (Elt Ideal)) (x9 : (⟨S64, .f32⟩ : BufTy).Contents (Elt Ideal))

/-- The specification's weighted values, reshaped to heads by channels, are the reference's. -/
theorem sv_cast (h : (⟨2, ![800000, 96]⟩ : Shape).ShapeCasts ⟨3, ![800000, 8, 12]⟩) :
    shapeCast ⟨3, ![800000, 8, 12]⟩
        (svArr (M := 800000) x1 (KS x0 x2 x4) (VS x0 x2 x6 x7) (QV x0 x5) x8 (rowOfVec x9) bdLit repLit) h
      = val_main_v48 (F := Ideal) x0 x1 x2 x3 x4 x5 x6 x7 x8 x9 := by
  funext i
  obtain ⟨t, a, d, rfl⟩ : ∃ (t : Fin 800000) (a : Fin 8) (d : Fin 12), i = ix3 t a d := ⟨i 0, i 1, i 2, eq_ix3 i⟩
  rw [sv_eq x0 x1 x2 x3 x4 x5 x6 x7 x8 x9 bdLit bd_entry repLit rep_entry t a d]
  refine shapeCast_apply _ h _ _ ?_
  rw [Shape.rowMajor_val_two, Shape.rowMajor_val_three]
  show t.val * 96 + (12 * a.val + d.val) = (t.val * 8 + a.val) * 12 + d.val
  omega

/-- The specification's head weights, reshaped with a unit axis, are the reference's. -/
theorem s_cast (h : (⟨2, ![800000, 8]⟩ : Shape).ShapeCasts ⟨3, ![800000, 8, 1]⟩) :
    shapeCast ⟨3, ![800000, 8, 1]⟩
        (sArr (M := 800000) x1 (KS x0 x2 x4) (QV x0 x5) x8 (rowOfVec x9) bdLit) h
      = val_main_v39 (F := Ideal) x0 x1 x2 x3 x4 x5 x8 x9 := by
  funext i
  obtain ⟨t, a, u, rfl⟩ : ∃ (t : Fin 800000) (a : Fin 8) (u : Fin 1), i = ix3 t a u := ⟨i 0, i 1, i 2, eq_ix3 i⟩
  obtain rfl : u = 0 := Subsingleton.elim _ _
  rw [s_eq x0 x1 x2 x3 x4 x5 x8 x9 bdLit bd_entry t a]
  refine shapeCast_apply _ h _ _ ?_
  rw [Shape.rowMajor_val_two, Shape.rowMajor_val_three]
  show t.val * 8 + a.val = (t.val * 8 + a.val) * 1 + 0
  omega

/-- The reference's node output is the kernel program's tail of the specification's weighted values and head weights. -/
theorem ref_tail :
    val_main_v59 (F := Ideal) x0 x1 x2 x3 x4 x5 x6 x7 x8 x9
      = tailK (svArr (M := 800000) x1 (KS x0 x2 x4) (VS x0 x2 x6 x7) (QV x0 x5) x8 (rowOfVec x9) bdLit repLit)
          (sArr (M := 800000) x1 (KS x0 x2 x4) (QV x0 x5) x8 (rowOfVec x9) bdLit) x3 := by
  unfold tailK
  rw [sv_cast x0 x1 x2 x3 x4 x5 x6 x7 x8 x9, s_cast x0 x1 x2 x3 x4 x5 x8 x9]
  rfl

end Cert.Bridge

/-! ## The claims -/

namespace Cert.Proof

open Idealize.ShloMosaic Idealize.ShloMosaic.TcCoe Idealize.SL.Sem
open Cert.Spec Cert.RowGather

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the same two result arrays: the kernel program's, read off its run, are the specification's
    functions of the arguments; the reference's stages are the same functions. -/
theorem algebraic : Cert.algebraic_KernelIdeal_ReferenceIdeal := by
  intro m ρ m' ρ' _ hagree
  refine ⟨fun c => Cert.KernelIdeal.Gen.W5 m ρ c (Proc.devRef .tc Cert.KernelIdeal.main_v36),
    fun c => Cert.KernelIdeal.Gen.W5 m ρ c (Proc.devRef .tc Cert.KernelIdeal.main_v23_0),
    Cert.KernelIdeal.Val.run_vals (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    show _ = Cert.KernelIdeal.Gen.W5 m ρ c (Proc.devRef .tc Cert.KernelIdeal.main_v36)
    rw [Cert.ReferenceIdeal.Read.val_main_v59_eq m' c, h0, h1, h2, h3, h4, h5, h6, h7, h8, h9,
      Cert.KernelIdeal.Val.hout_k m ρ c]
    exact Cert.Bridge.ref_tail _ _ _ _ _ _ _ _ _ _
  · obtain ⟨h0, h1, h2, h3, h4, h5, h6, h7, h8, h9, h10, h11⟩ := hagree c
    show _ = Cert.KernelIdeal.Gen.W5 m ρ c (Proc.devRef .tc Cert.KernelIdeal.main_v23_0)
    rw [h0, h1, h2, h3, h4, h5, h8, h9, h10, h11, Cert.KernelIdeal.Val.eout_k m ρ c]
    exact (Cert.ReferenceIdeal.Read.val_main_v64_eq _ _ _ _ _ _ _ _ _ _).trans
      (Cert.ReferenceIdeal.RefVal.eout_eq _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
